-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x64 : Shape := ⟨2, ![50000, 64]⟩
abbrev S4x400000 : Shape := ⟨2, ![4, 400000]⟩
abbrev S4x128x128 : Shape := ⟨3, ![4, 128, 128]⟩
abbrev S1x128 : Shape := ⟨2, ![1, 128]⟩
abbrev S128x128 : Shape := ⟨2, ![128, 128]⟩
abbrev S192x128 : Shape := ⟨2, ![192, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S1x128 : S_.BroadcastsInDim S1x128 (![] : Fin 0 → Fin S1x128.rank)
  reducesTo_S1x128_S_d0_1 : S1x128.ReducesTo [0, 1] S_
  bcast_S_S128x128 : S_.BroadcastsInDim S128x128 (![] : Fin 0 → Fin S128x128.rank)
  reducesTo_S128x128_S_d0_1 : S128x128.ReducesTo [0, 1] S_
  bcast_S_S192x128 : S_.BroadcastsInDim S192x128 (![] : Fin 0 → Fin S192x128.rank)
  reducesTo_S192x128_S_d0_1 : S192x128.ReducesTo [0, 1] S_

variable [Facts]

def fn_part3 {F : FTy → Type} [FloatOps F] (main_arg13 : FVec F S1x128 .f32) (main_v48 : IVec S_ 1) (main_v49 : FVec F S192x128 .f32) (main_v50 : FVec F S192x128 .f32) : IVec S_ 1 :=
  let main_v51 : IVec S192x128 1 := cmpf .olt main_v49 main_v50
  let main_c_19 : IVec S_ 1 := constantI S_ 1 1#1
  let main_v52 : IVec S_ 1 := (fun x v => Host.reduce IntOp.andi x v reducesTo_S192x128_S_d0_1 h_S_) main_v51 main_c_19
  let main_v53 : IVec S_ 1 := andi main_v48 main_v52
  let main_v54 : FVec F S1x128 .f32 := Host.absf main_arg13
  let main_cst_20 : FVec F S_ .f32 := constant S_ .f32 0x7F800000#32
  let main_v55 : FVec F S1x128 .f32 := broadcastInDim S1x128 ![] bcast_S_S1x128 main_cst_20
  let main_v56 : IVec S1x128 1 := cmpf .olt main_v54 main_v55
  let main_c_21 : IVec S_ 1 := constantI S_ 1 1#1
  let main_v57 : IVec S_ 1 := (fun x v => Host.reduce IntOp.andi x v reducesTo_S1x128_S_d0_1 h_S_) main_v56 main_c_21
  let main_v58 : IVec S_ 1 := andi main_v53 main_v57
  main_v58

def fn_part2 {F : FTy → Type} [FloatOps F] (main_arg9 : FVec F S128x128 .f32) (main_arg10 : FVec F S128x128 .f32) (main_arg11 : FVec F S128x128 .f32) (main_arg12 : FVec F S192x128 .f32) (main_arg13 : FVec F S1x128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S192x128 .f32 := Host.absf main_arg12
  let main_cst_18 : FVec F S_ .f32 := constant S_ .f32 0x7F800000#32
  let main_v50 : FVec F S192x128 .f32 := broadcastInDim S192x128 ![] bcast_S_S192x128 main_cst_18
  fn_part3 (F := F) main_arg13 main_v48 main_v49 main_v50

def fn_part1 {F : FTy → Type} [FloatOps F] (main_arg6 : FVec F S128x128 .f32) (main_arg7 : FVec F S128x128 .f32) (main_arg8 : FVec F S128x128 .f32) (main_arg9 : FVec F S128x128 .f32) (main_arg10 : FVec F S128x128 .f32) (main_arg11 : FVec F S128x128 .f32) (main_arg12 : FVec F S192x128 .f32) (main_arg13 : FVec F S1x128 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x128 .f32) (main_arg1 : FVec F S50000x64 .f32) (main_arg2 : IVec S4x400000 32) (main_arg3 : IVec S4x400000 32) (main_arg4 : FVec F S4x128x128 .f32) (main_arg5 : FVec F S1x128 .f32) (main_arg6 : FVec F S128x128 .f32) (main_arg7 : FVec F S128x128 .f32) (main_arg8 : FVec F S128x128 .f32) (main_arg9 : FVec F S128x128 .f32) (main_arg10 : FVec F S128x128 .f32) (main_arg11 : FVec F S128x128 .f32) (main_arg12 : FVec F S192x128 .f32) (main_arg13 : FVec F S1x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S4x128x128 .f32 := Host.absf main_arg4
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_c_3 : IVec S_ 1 := constantI S_ 1 1#1
  let main_v12 : IVec S_ 1 := (fun x v => Host.reduce IntOp.andi x v reducesTo_S4x128x128_S_d0_1_2 h_S_) main_v11 main_c_3
  let main_v13 : IVec S_ 1 := andi main_v8 main_v12
  let main_v14 : FVec F S1x128 .f32 := Host.absf main_arg5
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg6 main_arg7 main_arg8 main_arg9 main_arg10 main_arg11 main_arg12 main_arg13 main_v13 main_v16
-- ==== Kernel.lean ====
abbrev S50000x128 : Shape := ⟨2, ![50000, 128]⟩
abbrev S50000x64 : Shape := ⟨2, ![50000, 64]⟩
abbrev S4x400000 : Shape := ⟨2, ![4, 400000]⟩
abbrev S4x128x128 : Shape := ⟨3, ![4, 128, 128]⟩
abbrev S1x128 : Shape := ⟨2, ![1, 128]⟩
abbrev S128x128 : Shape := ⟨2, ![128, 128]⟩
abbrev S192x128 : Shape := ⟨2, ![192, 128]⟩
abbrev S_ : Shape := ⟨0, ![]⟩
abbrev S4x400000x1 : Shape := ⟨3, ![4, 400000, 1]⟩
abbrev S4x400000x128 : Shape := ⟨3, ![4, 400000, 128]⟩
abbrev S4x2000x128 : Shape := ⟨3, ![4, 2000, 128]⟩
abbrev S1600000x128 : Shape := ⟨2, ![1600000, 128]⟩
abbrev S1600000 : Shape := ⟨1, ![1600000]⟩
abbrev S1600000x1 : Shape := ⟨2, ![1600000, 1]⟩
abbrev S2000x128 : Shape := ⟨2, ![2000, 128]⟩
abbrev S64x128 : Shape := ⟨2, ![64, 128]⟩
abbrev S2000x64 : Shape := ⟨2, ![2000, 64]⟩

abbrev nBuf : Space → Nat
  | .hbm => 46
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S50000x64, .f32⟩
  | .hbm, ⟨2, _⟩ => ⟨S4x400000, .i32⟩
  | .hbm, ⟨3, _⟩ => ⟨S4x400000, .i32⟩
  | .hbm, ⟨4, _⟩ => ⟨S4x128x128, .f32⟩
  | .hbm, ⟨5, _⟩ => ⟨S1x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S192x128, .f32⟩
  | .hbm, ⟨13, _⟩ => ⟨S1x128, .f32⟩
  | .hbm, ⟨14, _⟩ => ⟨S4x128x128, .bf16⟩
  | .hbm, ⟨15, _⟩ => ⟨S_, .i32⟩
  | .hbm, ⟨16, _⟩ => ⟨S4x400000, .i32⟩
  | .hbm, ⟨17, _⟩ => ⟨S4x400000, .i1⟩
  | .hbm, ⟨18, _⟩ => ⟨S_, .i32⟩
  | .hbm, ⟨19, _⟩ => ⟨S4x400000, .i32⟩
  | .hbm, ⟨20, _⟩ => ⟨S4x400000, .i32⟩
  | .hbm, ⟨21, _⟩ => ⟨S4x400000, .i32⟩
  | .hbm, ⟨22, _⟩ => ⟨S4x400000x1, .i32⟩
  | .hbm, ⟨23, _⟩ => ⟨S4x400000x128, .f32⟩
  | .hbm, ⟨24, _⟩ => ⟨S4x400000x128, .bf16⟩
  | .hbm, ⟨25, _⟩ => ⟨S4x400000x128, .f32⟩
  | .hbm, ⟨26, _⟩ => ⟨S1600000x128, .f32⟩
  | .hbm, ⟨27, _⟩ => ⟨S1600000, .i32⟩
  | .hbm, ⟨28, _⟩ => ⟨S_, .f32⟩
  | .hbm, ⟨29, _⟩ => ⟨S50000x128, .f32⟩
  | .hbm, ⟨30, _⟩ => ⟨S1600000x1, .i32⟩
  | .hbm, ⟨31, _⟩ => ⟨S50000x128, .f32⟩
  | .hbm, ⟨32, _⟩ => ⟨S50000x128, .f32⟩
  | .hbm, ⟨33, _⟩ => ⟨S50000x128, .f32⟩
  | .hbm, ⟨34, _⟩ => ⟨S128x128, .bf16⟩
  | .hbm, ⟨35, _⟩ => ⟨S128x128, .bf16⟩
  | .hbm, ⟨36, _⟩ => ⟨S128x128, .bf16⟩
  | .hbm, ⟨37, _⟩ => ⟨S128x128, .bf16⟩
  | .hbm, ⟨38, _⟩ => ⟨S128x128, .bf16⟩
  | .hbm, ⟨39, _⟩ => ⟨S128x128, .bf16⟩
  | .hbm, ⟨40, _⟩ => ⟨S50000x128, .f32⟩
  | .hbm, ⟨41, _⟩ => ⟨S128x128, .f32⟩
  | .hbm, ⟨42, _⟩ => ⟨S128x128, .bf16⟩
  | .hbm, ⟨43, _⟩ => ⟨S64x128, .f32⟩
  | .hbm, ⟨44, _⟩ => ⟨S64x128, .bf16⟩
  | .hbm, ⟨45, _⟩ => ⟨S50000x128, .f32⟩
  | .local _ .vmem, ⟨0, _⟩ => ⟨S4x2000x128, .bf16⟩
  | .local _ .vmem, ⟨1, _⟩ => ⟨S4x2000x128, .bf16⟩
  | .local _ .vmem, ⟨2, _⟩ => ⟨S4x128x128, .bf16⟩
  | .local _ .vmem, ⟨3, _⟩ => ⟨S4x2000x128, .f32⟩
  | .local _ .vmem, ⟨4, _⟩ => ⟨S4x2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S128x128, .bf16⟩
  | .local _ .vmem, ⟨10, _⟩ => ⟨S128x128, .bf16⟩
  | .local _ .vmem, ⟨11, _⟩ => ⟨S128x128, .bf16⟩
  | .local _ .vmem, ⟨12, _⟩ => ⟨S128x128, .bf16⟩
  | .local _ .vmem, ⟨13, _⟩ => ⟨S128x128, .bf16⟩
  | .local _ .vmem, ⟨14, _⟩ => ⟨S128x128, .bf16⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x64, .f32⟩
  | .local _ .vmem, ⟨20, _⟩ => ⟨S2000x64, .f32⟩
  | .local _ .vmem, ⟨21, _⟩ => ⟨S128x128, .bf16⟩
  | .local _ .vmem, ⟨22, _⟩ => ⟨S64x128, .bf16⟩
  | .local _ .vmem, ⟨23, _⟩ => ⟨S1x128, .f32⟩
  | .local _ .vmem, ⟨24, _⟩ => ⟨S2000x128, .f32⟩
  | .local _ .vmem, ⟨25, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg8_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem8_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![200], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bitsLt_bf16_f32 : FTy.bits .bf16 < FTy.bits .f32
  bcast_S_S4x400000 : S_.BroadcastsInDim S4x400000 (![] : Fin 0 → Fin S4x400000.rank)
  bcast_S4x400000_S4x400000x1_0_1 : S4x400000.BroadcastsInDim S4x400000x1 (![0, 1] : Fin 2 → Fin S4x400000x1.rank)
  inb_S4x2000x128_S4x2000x128_0_0_0 : ∀ a, (![0, 0, 0] : Fin 3 → Nat) a + S4x2000x128.size a ≤ S4x2000x128.size a
  h_S4x2000x128 : 0 < S4x2000x128.numel
  shapeCasts_S4x2000x128_S4x2000x128 : S4x2000x128.ShapeCasts S4x2000x128
  inb_S4x128x128_S4x128x128_0_0_0 : ∀ a, (![0, 0, 0] : Fin 3 → Nat) a + S4x128x128.size a ≤ S4x128x128.size a
  h_S4x128x128 : 0 < S4x128x128.numel
  shapeCasts_S4x128x128_S4x128x128 : S4x128x128.ShapeCasts S4x128x128
  shapeCasts_S4x400000x128_S1600000x128 : S4x400000x128.ShapeCasts S1600000x128
  shapeCasts_S4x400000_S1600000 : S4x400000.ShapeCasts S1600000
  bcast_S_S50000x128 : S_.BroadcastsInDim S50000x128 (![] : Fin 0 → Fin S50000x128.rank)
  bcast_S1600000_S1600000x1_0 : S1600000.BroadcastsInDim S1600000x1 (![0] : Fin 1 → Fin S1600000x1.rank)
  bcast_S1x128_S50000x128_0_1 : S1x128.BroadcastsInDim S50000x128 (![0, 1] : Fin 2 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S192x128_S128x128_0_0 : S192x128.Slices ![0, 0] S128x128
  slices_S192x128_S64x128_128_0 : S192x128.Slices ![128, 0] S64x128
  inb_S2000x64_S2000x64_0_0 : ∀ a, (![0, 0] : Fin 2 → Nat) a + S2000x64.size a ≤ S2000x64.size a
  h_S2000x64 : 0 < S2000x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  broadcasts_S1x128_S2000x128 : S1x128.Broadcasts S2000x128
  gather_S50000x128_S4x400000x1_S4x400000x128_2_0_n_n_0_2_1128_wf : GatherDims.WF S50000x128 S4x400000x1 S4x400000x128 [2] [0] [] [0] [] 2 ![1, 128]
  dot_S4x2000x128_S4x128x128_S4x2000x128_2_1_1_2_0_0_wf : DotDims.WF S4x2000x128 S4x128x128 S4x2000x128 [2] [1] [1] [2] [0] [0]
  scatter_S50000x128_S1600000x1_S1600000x128_1_0_0_1_wf : ScatterDims.WF S50000x128 S1600000x1 S1600000x128 [1] [0] [0] 1
  dot_S2000x128_S128x128_S2000x128_1_0_0_1_n_n_wf : DotDims.WF S2000x128 S128x128 S2000x128 [1] [0] [0] [1] [] []
  dot_S2000x64_S64x128_S2000x128_1_0_0_1_n_n_wf : DotDims.WF S2000x64 S64x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x2000x128.size a ≤ S4x400000x128.size a
  hwx0_0 : ∀ i : grid0.Coords, EltTy.bits .bf16 = 32 ∨ (Rect.block (s := S4x400000x128) S4x2000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x128x128.size a ≤ S4x128x128.size a
  hwx0_1 : ∀ i : grid0.Coords, EltTy.bits .bf16 = 32 ∨ (Rect.block (s := S4x128x128) S4x128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x2000x128.size a ≤ S4x400000x128.size a
  hwx0_2 : ∀ i : grid0.Coords, EltTy.bits .f32 = 32 ∨ (Rect.block (s := S4x400000x128) S4x2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .bf16 = 32 ∨ (Rect.block (s := S128x128) S128x128.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .bf16 = 32 ∨ (Rect.block (s := S128x128) S128x128.size (cc1_transform_7 i) (hinb1_7 i)).WholeWords (EltTy.packing .bf16)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S50000x128.size a
  hwx1_8 : ∀ i : grid1.Coords, EltTy.bits .f32 = 32 ∨ (Rect.block (s := S50000x128) S2000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S50000x64.size a
  hwx2_1 : ∀ i : grid2.Coords, EltTy.bits .f32 = 32 ∨ (Rect.block (s := S50000x64) S2000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x128.size a
  hwx2_3 : ∀ i : grid2.Coords, EltTy.bits .bf16 = 32 ∨ (Rect.block (s := S64x128) S64x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)

variable [Facts₀]

def gather_S50000x128_S4x400000x1_S4x400000x128_2_0_n_n_0_2_1128 : GatherDims S50000x128 S4x400000x1 S4x400000x128 where
  offsetDims := [2]
  collapsedSliceDims := [0]
  operandBatchingDims := []
  startIndicesBatchingDims := []
  startIndexMap := [0]
  indexVectorDim := 2
  sliceSizes := ![1, 128]
  wf := gather_S50000x128_S4x400000x1_S4x400000x128_2_0_n_n_0_2_1128_wf
def dot_S4x2000x128_S4x128x128_S4x2000x128_2_1_1_2_0_0 : DotDims S4x2000x128 S4x128x128 S4x2000x128 where
  lhsContracting := [2]
  rhsContracting := [1]
  lhsNonContracting := [1]
  rhsNonContracting := [2]
  lhsBatch := [0]
  rhsBatch := [0]
  wf := dot_S4x2000x128_S4x128x128_S4x2000x128_2_1_1_2_0_0_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf

abbrev win0_0 : Pipeline.Window sig grid0 :=
  Pipeline.Window.ofSpec (Memref.whole main_v8) S4x2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S4x2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v16) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v22) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v23) S2000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v23) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v25) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v27) S64x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v28) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S50000x64 : Shape := ⟨2, ![50000, 64]⟩
abbrev S4x400000 : Shape := ⟨2, ![4, 400000]⟩
abbrev S4x128x128 : Shape := ⟨3, ![4, 128, 128]⟩
abbrev S1x128 : Shape := ⟨2, ![1, 128]⟩
abbrev S128x128 : Shape := ⟨2, ![128, 128]⟩
abbrev S192x128 : Shape := ⟨2, ![192, 128]⟩
abbrev S_ : Shape := ⟨0, ![]⟩
abbrev S4x400000x1 : Shape := ⟨3, ![4, 400000, 1]⟩
abbrev S4x400000x128 : Shape := ⟨3, ![4, 400000, 128]⟩
abbrev S1600000x128 : Shape := ⟨2, ![1600000, 128]⟩
abbrev S1600000 : Shape := ⟨1, ![1600000]⟩
abbrev S1600000x1 : Shape := ⟨2, ![1600000, 1]⟩
abbrev S50000x192 : Shape := ⟨2, ![50000, 192]⟩

abbrev nBuf : Space → Nat
  | .hbm => 69
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x64, .f32⟩
  | .hbm, ⟨2, _⟩ => ⟨S4x400000, .i32⟩
  | .hbm, ⟨3, _⟩ => ⟨S4x400000, .i32⟩
  | .hbm, ⟨4, _⟩ => ⟨S4x128x128, .f32⟩
  | .hbm, ⟨5, _⟩ => ⟨S1x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S192x128, .f32⟩
  | .hbm, ⟨13, _⟩ => ⟨S1x128, .f32⟩
  | .hbm, ⟨14, _⟩ => ⟨S_, .i32⟩
  | .hbm, ⟨15, _⟩ => ⟨S4x400000, .i32⟩
  | .hbm, ⟨16, _⟩ => ⟨S4x400000, .i1⟩
  | .hbm, ⟨17, _⟩ => ⟨S_, .i32⟩
  | .hbm, ⟨18, _⟩ => ⟨S4x400000, .i32⟩
  | .hbm, ⟨19, _⟩ => ⟨S4x400000, .i32⟩
  | .hbm, ⟨20, _⟩ => ⟨S4x400000, .i32⟩
  | .hbm, ⟨21, _⟩ => ⟨S4x400000x1, .i32⟩
  | .hbm, ⟨22, _⟩ => ⟨S4x400000x128, .f32⟩
  | .hbm, ⟨23, _⟩ => ⟨S4x400000x128, .f32⟩
  | .hbm, ⟨24, _⟩ => ⟨S1600000x128, .f32⟩
  | .hbm, ⟨25, _⟩ => ⟨S1600000, .i32⟩
  | .hbm, ⟨26, _⟩ => ⟨S_, .f32⟩
  | .hbm, ⟨27, _⟩ => ⟨S50000x128, .f32⟩
  | .hbm, ⟨28, _⟩ => ⟨S1600000x1, .i32⟩
  | .hbm, ⟨29, _⟩ => ⟨S50000x128, .f32⟩
  | .hbm, ⟨30, _⟩ => ⟨S50000x128, .f32⟩
  | .hbm, ⟨31, _⟩ => ⟨S50000x128, .f32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S_, .f32⟩
  | .hbm, ⟨38, _⟩ => ⟨S50000x128, .f32⟩
  | .hbm, ⟨39, _⟩ => ⟨S50000x128, .f32⟩
  | .hbm, ⟨40, _⟩ => ⟨S_, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S50000x128, .f32⟩
  | .hbm, ⟨50, _⟩ => ⟨S50000x128, .f32⟩
  | .hbm, ⟨51, _⟩ => ⟨S_, .f32⟩
  | .hbm, ⟨52, _⟩ => ⟨S50000x128, .f32⟩
  | .hbm, ⟨53, _⟩ => ⟨S50000x128, .f32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S50000x128, .f32⟩
  | .hbm, ⟨58, _⟩ => ⟨S50000x128, .f32⟩
  | .hbm, ⟨59, _⟩ => ⟨S_, .f32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S50000x128, .f32⟩
  | .hbm, ⟨65, _⟩ => ⟨S50000x192, .f32⟩
  | .hbm, ⟨66, _⟩ => ⟨S50000x128, .f32⟩
  | .hbm, ⟨67, _⟩ => ⟨S50000x128, .f32⟩
  | .hbm, ⟨68, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_5 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩

abbrev nD : Nat := 1
abbrev τ : Topo := Topo.v7x

variable {F : FTy → Type} [FloatOps F]

class Facts₀ : Prop where
  bcast_S_S4x400000 : S_.BroadcastsInDim S4x400000 (![] : Fin 0 → Fin S4x400000.rank)
  bcast_S4x400000_S4x400000x1_0_1 : S4x400000.BroadcastsInDim S4x400000x1 (![0, 1] : Fin 2 → Fin S4x400000x1.rank)
  shapeCasts_S4x400000x128_S1600000x128 : S4x400000x128.ShapeCasts S1600000x128
  shapeCasts_S4x400000_S1600000 : S4x400000.ShapeCasts S1600000
  bcast_S_S50000x128 : S_.BroadcastsInDim S50000x128 (![] : Fin 0 → Fin S50000x128.rank)
  bcast_S1600000_S1600000x1_0 : S1600000.BroadcastsInDim S1600000x1 (![0] : Fin 1 → Fin S1600000x1.rank)
  bcast_S1x128_S50000x128_0_1 : S1x128.BroadcastsInDim S50000x128 (![0, 1] : Fin 2 → Fin S50000x128.rank)
  concatenates_S50000x128_S50000x64_S50000x192_d1 : Shape.Concatenates [S50000x128, S50000x64] S50000x192 1
  gather_S50000x128_S4x400000x1_S4x400000x128_2_0_n_n_0_2_1128_wf : GatherDims.WF S50000x128 S4x400000x1 S4x400000x128 [2] [0] [] [0] [] 2 ![1, 128]
  dot_S4x400000x128_S4x128x128_S4x400000x128_2_1_1_2_0_0_wf : DotDims.WF S4x400000x128 S4x128x128 S4x400000x128 [2] [1] [1] [2] [0] [0]
  scatter_S50000x128_S1600000x1_S1600000x128_1_0_0_1_wf : ScatterDims.WF S50000x128 S1600000x1 S1600000x128 [1] [0] [0] 1
  dot_S50000x128_S128x128_S50000x128_1_0_0_1_n_n_wf : DotDims.WF S50000x128 S128x128 S50000x128 [1] [0] [0] [1] [] []
  dot_S50000x192_S192x128_S50000x128_1_0_0_1_n_n_wf : DotDims.WF S50000x192 S192x128 S50000x128 [1] [0] [0] [1] [] []

variable [Facts₀]

def gather_S50000x128_S4x400000x1_S4x400000x128_2_0_n_n_0_2_1128 : GatherDims S50000x128 S4x400000x1 S4x400000x128 where
  offsetDims := [2]
  collapsedSliceDims := [0]
  operandBatchingDims := []
  startIndicesBatchingDims := []
  startIndexMap := [0]
  indexVectorDim := 2
  sliceSizes := ![1, 128]
  wf := gather_S50000x128_S4x400000x1_S4x400000x128_2_0_n_n_0_2_1128_wf
def dot_S4x400000x128_S4x128x128_S4x400000x128_2_1_1_2_0_0 : DotDims S4x400000x128 S4x128x128 S4x400000x128 where
  lhsContracting := [2]
  rhsContracting := [1]
  lhsNonContracting := [1]
  rhsNonContracting := [2]
  lhsBatch := [0]
  rhsBatch := [0]
  wf := dot_S4x400000x128_S4x128x128_S4x400000x128_2_1_1_2_0_0_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x192_S192x128_S50000x128_1_0_0_1_n_n : DotDims S50000x192 S192x128 S50000x128 where
  lhsContracting := [1]
  rhsContracting := [0]
  lhsNonContracting := [0]
  rhsNonContracting := [1]
  lhsBatch := []
  rhsBatch := []
  wf := dot_S50000x192_S192x128_S50000x128_1_0_0_1_n_n_wf

class Facts : Prop extends Facts₀ where

variable [Facts]
-- ==== Proof.Spec.lean ====
/-
  The mathematics of one gated graph propagation step followed by a linear read-out, stated once over
  the extended reals, index by index. Three stages:

  * messages: for edge type l, edge e and feature f, the gathered source state times that type's weight,
    msgs(l,e,f) = sum over d of g(l,e,d) * W(l,d,f);
  * the gated update of a node state h by its aggregated message a:
    z = sigma(a Wz + h Uz), r = sigma(a Wr + h Ur), c = tanh(a W + (r .* h) U), h' = (1 - z) .* h + z .* c,
    where sigma is the logistic function and every product a Wz is a sum over the 128 features;
  * the read-out: the new state times the upper 128 rows of the read-out matrix, plus the annotation
    times its lower 64 rows, plus the bias row. The same number is the product of the row (h' | x) of
    length 192 with the whole matrix: a sum over 192 indices splits into its first 128 and last 64 terms.
-/
import Idealize.ShloMosaic.PureOps.Ideal
import Idealize.ShloMosaic.Lib.ValueIdx
import Idealize.ShloMosaic.Lib.IdealHost
import Mathlib.Algebra.BigOperators.Fin

noncomputable section

namespace Cert.Ggnn

open Idealize.ShloMosaic Idealize.ShloMosaic.ValueIdx

/-- A rank-2 array of extended reals. -/
abbrev Arr2 (a b : Nat) : Type := (⟨2, ![a, b]⟩ : Shape).Idx → EReal
/-- A rank-3 array of extended reals. -/
abbrev Arr3 (a b c : Nat) : Type := (⟨3, ![a, b, c]⟩ : Shape).Idx → EReal

/-- The float word of 1.0, kept as its word: both programs spell the same word. -/
abbrev one32 : EReal := Ideal.ofBits .f32 0x3F800000#32

/-! ## Messages -/

/-- Entry (l, e, f) of the per-edge-type product. -/
def msgsAt (g : Arr3 4 400000 128) (W : Arr3 4 128 128) (l : Fin 4) (e : Fin 400000) (f : Fin 128) : EReal :=
  ∑ k : Fin 128, g (ix3 l e k) * W (ix3 l k f)

/-- The per-edge-type product as an array. -/
def msgs (g : Arr3 4 400000 128) (W : Arr3 4 128 128) : Arr3 4 400000 128 :=
  fun i => msgsAt g W (i 0) (i 1) (i 2)

theorem msgs_ix3 (g : Arr3 4 400000 128) (W : Arr3 4 128 128) (l : Fin 4) (e : Fin 400000) (f : Fin 128) :
    msgs g W (ix3 l e f) = ∑ k : Fin 128, g (ix3 l e k) * W (ix3 l k f) := rfl

/-! ## The gated update -/

/-- Entry (n, f) of a [50000,128] by [128,128] matrix product. -/
def mm (a : Arr2 50000 128) (w : Arr2 128 128) (n : Fin 50000) (f : Fin 128) : EReal :=
  ∑ k : Fin 128, a (ix2 n k) * w (ix2 k f)

/-- The logistic of a sum of two matrix products, entry (n, f): the shape of both gates. -/
def gate (a h : Arr2 50000 128) (Wg Ug : Arr2 128 128) (n : Fin 50000) (f : Fin 128) : EReal :=
  Ideal.logistic (mm a Wg n f + mm h Ug n f)

/-- The reset state r .* h as an array. -/
def resetState (a h : Arr2 50000 128) (Wr Ur : Arr2 128 128) : Arr2 50000 128 :=
  fun j => gate a h Wr Ur (j 0) (j 1) * h j

/-- The candidate state at (n, f). -/
def cand (a h : Arr2 50000 128) (Wr W Ur U : Arr2 128 128) (n : Fin 50000) (f : Fin 128) : EReal :=
  Ideal.tanh (mm a W n f + mm (resetState a h Wr Ur) U n f)

/-- The new node state at (n, f). -/
def gruAt (a h : Arr2 50000 128) (Wz Wr W Uz Ur U : Arr2 128 128) (n : Fin 50000) (f : Fin 128) : EReal :=
  (one32 - gate a h Wz Uz n f) * h (ix2 n f) + gate a h Wz Uz n f * cand a h Wr W Ur U n f

/-- The gated update as an array. -/
def gru (a h : Arr2 50000 128) (Wz Wr W Uz Ur U : Arr2 128 128) : Arr2 50000 128 :=
  fun i => gruAt a h Wz Wr W Uz Ur U (i 0) (i 1)

theorem gru_ix2 (a h : Arr2 50000 128) (Wz Wr W Uz Ur U : Arr2 128 128) (n : Fin 50000) (f : Fin 128) :
    gru a h Wz Wr W Uz Ur U (ix2 n f) = gruAt a h Wz Wr W Uz Ur U n f := rfl

/-! ## The read-out -/

/-- Entry (n, f) of the read-out with the matrix already cut into its upper and lower rows. -/
def projAt (h1 : Arr2 50000 128) (x : Arr2 50000 64) (rh : Arr2 128 128) (rx : Arr2 64 128) (b : Arr2 1 128)
    (n : Fin 50000) (f : Fin 128) : EReal :=
  (∑ k : Fin 128, h1 (ix2 n k) * rh (ix2 k f) + ∑ k : Fin 64, x (ix2 n k) * rx (ix2 k f)) + b (ix2 0 f)

/-- The read-out as an array. -/
def proj (h1 : Arr2 50000 128) (x : Arr2 50000 64) (rh : Arr2 128 128) (rx : Arr2 64 128) (b : Arr2 1 128) :
    Arr2 50000 128 :=
  fun i => projAt h1 x rh rx b (i 0) (i 1)

theorem proj_ix2 (h1 : Arr2 50000 128) (x : Arr2 50000 64) (rh : Arr2 128 128) (rx : Arr2 64 128) (b : Arr2 1 128)
    (n : Fin 50000) (f : Fin 128) : proj h1 x rh rx b (ix2 n f) = projAt h1 x rh rx b n f := rfl

/-- A sum over 192 indices is the sum over the first 128 plus the sum over the last 64. -/
theorem sum_192_split (t : Fin 192 → EReal) :
    ∑ k : Fin 192, t k = ∑ k : Fin 128, t (Fin.castAdd 64 k) + ∑ k : Fin 64, t (Fin.natAdd 128 k) :=
  Fin.sum_univ_add (fun k : Fin (128 + 64) => t k)

/-- The upper 128 rows of a [192,128] matrix. -/
def rowsLo (r : Arr2 192 128) : Arr2 128 128 := fun j => r (ix2 (Fin.castAdd 64 (j 0)) (j 1))

/-- The lower 64 rows of a [192,128] matrix. -/
def rowsHi (r : Arr2 192 128) : Arr2 64 128 := fun j => r (ix2 (Fin.natAdd 128 (j 0)) (j 1))

theorem rowsLo_ix2 (r : Arr2 192 128) (k : Fin 128) (f : Fin 128) : rowsLo r (ix2 k f) = r (ix2 (Fin.castAdd 64 k) f) := rfl

theorem rowsHi_ix2 (r : Arr2 192 128) (k : Fin 64) (f : Fin 128) : rowsHi r (ix2 k f) = r (ix2 (Fin.natAdd 128 k) f) := rfl

end Cert.Ggnn

end
-- ==== Proof.Reg0.lean ====
import proofs.«103885_j12103217840256_1_alg».proof.Proof.Gen.KernelIdeal.Frame
import proofs.«103885_j12103217840256_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg0

open Cert.KernelIdeal Cert.KernelIdeal.Gen Idealize.ShloMosaic Idealize.ShloMosaic.TcCoe Idealize.SL.Sem
open Idealize.ShloMosaic.Pipeline (Dat Cfg Window)
open Idealize.ShloMosaic.ValueIdx (ix3 eq_ix3)

/-! ## The product's operand indices, axis by axis

At output index `i` and contraction index `q` the left operand is read at (batch of `i`, row of `i`, `q`)
and the right operand at (batch of `i`, `q`, column of `i`). -/

theorem lhs_ax0 (i : S4x2000x128.Idx) (q : dot_S4x2000x128_S4x128x128_S4x2000x128_2_1_1_2_0_0.contr.Idx) :
    (dot_S4x2000x128_S4x128x128_S4x2000x128_2_1_1_2_0_0.lhsIdx i q 0).val = (i 0).val := by
  unfold DotDims.lhsIdx
  rw [dif_pos (show (0 : Fin S4x2000x128.rank) ∈ dot_S4x2000x128_S4x128x128_S4x2000x128_2_1_1_2_0_0.lhsBatch by decide)]
  rfl
theorem lhs_ax1 (i : S4x2000x128.Idx) (q : dot_S4x2000x128_S4x128x128_S4x2000x128_2_1_1_2_0_0.contr.Idx) :
    (dot_S4x2000x128_S4x128x128_S4x2000x128_2_1_1_2_0_0.lhsIdx i q 1).val = (i 1).val := by
  unfold DotDims.lhsIdx
  rw [dif_neg (show ¬(1 : Fin S4x2000x128.rank) ∈ dot_S4x2000x128_S4x128x128_S4x2000x128_2_1_1_2_0_0.lhsBatch by decide), dif_pos (show (1 : Fin S4x2000x128.rank) ∈ dot_S4x2000x128_S4x128x128_S4x2000x128_2_1_1_2_0_0.lhsNonContracting by decide)]
  rfl
theorem lhs_ax2 (i : S4x2000x128.Idx) (q : dot_S4x2000x128_S4x128x128_S4x2000x128_2_1_1_2_0_0.contr.Idx) :
    (dot_S4x2000x128_S4x128x128_S4x2000x128_2_1_1_2_0_0.lhsIdx i q 2).val = (q ⟨0, by decide⟩).val :=
  dot_S4x2000x128_S4x128x128_S4x2000x128_2_1_1_2_0_0.lhsIdx_val_of_single rfl i q
theorem rhs_ax0 (i : S4x2000x128.Idx) (q : dot_S4x2000x128_S4x128x128_S4x2000x128_2_1_1_2_0_0.contr.Idx) :
    (dot_S4x2000x128_S4x128x128_S4x2000x128_2_1_1_2_0_0.rhsIdx i q 0).val = (i 0).val := by
  unfold DotDims.rhsIdx
  rw [dif_pos (show (0 : Fin S4x128x128.rank) ∈ dot_S4x2000x128_S4x128x128_S4x2000x128_2_1_1_2_0_0.rhsBatch by decide)]
  rfl
theorem rhs_ax1 (i : S4x2000x128.Idx) (q : dot_S4x2000x128_S4x128x128_S4x2000x128_2_1_1_2_0_0.contr.Idx) :
    (dot_S4x2000x128_S4x128x128_S4x2000x128_2_1_1_2_0_0.rhsIdx i q 1).val = (q ⟨0, by decide⟩).val :=
  dot_S4x2000x128_S4x128x128_S4x2000x128_2_1_1_2_0_0.rhsIdx_val_of_single rfl i q
theorem rhs_ax2 (i : S4x2000x128.Idx) (q : dot_S4x2000x128_S4x128x128_S4x2000x128_2_1_1_2_0_0.contr.Idx) :
    (dot_S4x2000x128_S4x128x128_S4x2000x128_2_1_1_2_0_0.rhsIdx i q 2).val = (i 2).val := by
  unfold DotDims.rhsIdx
  rw [dif_neg (show ¬(2 : Fin S4x128x128.rank) ∈ dot_S4x2000x128_S4x128x128_S4x2000x128_2_1_1_2_0_0.rhsBatch by decide), dif_pos (show (2 : Fin S4x128x128.rank) ∈ dot_S4x2000x128_S4x128x128_S4x2000x128_2_1_1_2_0_0.rhsNonContracting by decide)]
  rfl

/-! ## The body's payload at an index -/

/-- The product into the zero accumulator at (l, p, f): the sum over the 128 features of the gathered block at
    (l, p, k) times the weight at (l, k, f). -/
theorem matmul_at (y0 : FVec Ideal S4x2000x128 .bf16) (y1 : FVec Ideal S4x128x128 .bf16) (l : Fin 4) (p : Fin 2000) (f : Fin 128) :
    matmul dot_S4x2000x128_S4x128x128_S4x2000x128_2_1_1_2_0_0 none y0 y1 (constant (F := Ideal) S4x2000x128 .f32 0x00000000#32) (ix3 l p f)
      = ∑ k : Fin 128, y0 (ix3 l p k) * y1 (ix3 l k f) := by
  refine (Ideal.matmul_constant_zero_apply dot_S4x2000x128_S4x128x128_S4x2000x128_2_1_1_2_0_0 none y0 y1 (ix3 l p f)).trans ?_
  rw [← Equiv.sum_comp (ValueIdx.contrEquiv1 dot_S4x2000x128_S4x128x128_S4x2000x128_2_1_1_2_0_0 128 rfl rfl).symm]
  refine Finset.sum_congr rfl fun k _ => ?_
  have hk := ValueIdx.contrEquiv1_symm_val dot_S4x2000x128_S4x128x128_S4x2000x128_2_1_1_2_0_0 128 rfl rfl k
  have el : dot_S4x2000x128_S4x128x128_S4x2000x128_2_1_1_2_0_0.lhsIdx (ix3 l p f) ((ValueIdx.contrEquiv1 dot_S4x2000x128_S4x128x128_S4x2000x128_2_1_1_2_0_0 128 rfl rfl).symm k) = ix3 l p k := funext fun a => Fin.ext (by
    match a with
    | ⟨0, _⟩ => exact lhs_ax0 _ _
    | ⟨1, _⟩ => exact lhs_ax1 _ _
    | ⟨2, _⟩ => exact (lhs_ax2 _ _).trans hk)
  have er : dot_S4x2000x128_S4x128x128_S4x2000x128_2_1_1_2_0_0.rhsIdx (ix3 l p f) ((ValueIdx.contrEquiv1 dot_S4x2000x128_S4x128x128_S4x2000x128_2_1_1_2_0_0 128 rfl rfl).symm k) = ix3 l k f := funext fun a => Fin.ext (by
    match a with
    | ⟨0, _⟩ => exact rhs_ax0 _ _
    | ⟨1, _⟩ => exact (rhs_ax1 _ _).trans hk
    | ⟨2, _⟩ => exact rhs_ax2 _ _)
  rw [el, er]

/-- The payload at (l, p, f), over the two loaded blocks. -/
theorem pay_at (x0 : Vec Ideal S4x2000x128 .bf16) (x1 : Vec Ideal S4x128x128 .bf16) (l : Fin 4) (p : Fin 2000) (f : Fin 128) :
    k0_pay1 (F := Ideal) x0 x1 (ix3 l p f) = ∑ k : Fin 128, x0 (ix3 l p k) * x1 (ix3 l k f) := by
  unfold k0_pay1
  show matmul dot_S4x2000x128_S4x128x128_S4x2000x128_2_1_1_2_0_0 none (shapeCast S4x2000x128 x0 shapeCasts_S4x2000x128_S4x2000x128) (shapeCast S4x128x128 x1 shapeCasts_S4x128x128_S4x128x128) (constant (F := Ideal) S4x2000x128 .f32 0x00000000#32) (ix3 l p f) = _
  rw [shapeCast_self, shapeCast_self]
  exact matmul_at x0 x1 l p f

/-- The payload over two blocks that are restrictions of a gathered array `g` (rows `n * 2000 + p`) and of the whole
    weight array `W`, at a block index `j` whose place in the array is `i`: the specification's message at `i`. -/
theorem pay_eq_msgs (x0 : Vec Ideal S4x2000x128 .bf16) (x1 : Vec Ideal S4x128x128 .bf16)
    (g : Cert.Ggnn.Arr3 4 400000 128) (W : Cert.Ggnn.Arr3 4 128 128) (n : Nat)
    (h0 : ∀ (l : Fin 4) (p : Fin 2000) (k : Fin 128) (e : Fin 400000), e.val = n * 2000 + p.val → x0 (ix3 l p k) = g (ix3 l e k))
    (h1 : ∀ (l : Fin 4) (k : Fin 128) (f : Fin 128), x1 (ix3 l k f) = W (ix3 l k f))
    (j : S4x2000x128.Idx) (i : S4x400000x128.Idx)
    (hi0 : (i 0).val = (j 0).val) (hi1 : (i 1).val = n * 2000 + (j 1).val) (hi2 : (i 2).val = (j 2).val) :
    k0_pay1 (F := Ideal) x0 x1 j = Cert.Ggnn.msgs g W i := by
  obtain ⟨l, p, f, rfl⟩ : ∃ (l : Fin 4) (p : Fin 2000) (f : Fin 128), j = ix3 l p f := ⟨j 0, j 1, j 2, eq_ix3 j⟩
  obtain ⟨l', e, f', rfl⟩ : ∃ (l' : Fin 4) (e : Fin 400000) (f' : Fin 128), i = ix3 l' e f' := ⟨i 0, i 1, i 2, eq_ix3 i⟩
  have e0 : l' = l := Fin.ext hi0
  have e2 : f' = f := Fin.ext hi2
  subst e0 e2
  rw [pay_at, Cert.Ggnn.msgs_ix3]
  refine Finset.sum_congr rfl fun k _ => ?_
  rw [h0 l' p k e hi1, h1]

/-! ## The windows' blocks -/

theorem hz : (![0, 0, 0] : Fin 3 → Nat) = fun _ => 0 := funext fun a => by fin_cases a <;> rfl

/-- The index maps over the grid: the gathered array's and the result's block index is (0, t, 0), the weight's is
    (0, 0, 0). -/
theorem idx_facts : ∀ t : Fin cfg0.N, win0_0.index t (0 : Fin 3) = 0
    ∧ win0_0.index t (1 : Fin 3) = t.val
    ∧ win0_0.index t (2 : Fin 3) = 0
    ∧ win0_1.index t (0 : Fin 3) = 0
    ∧ win0_1.index t (1 : Fin 3) = 0
    ∧ win0_1.index t (2 : Fin 3) = 0
    ∧ win0_2.index t (0 : Fin 3) = 0
    ∧ win0_2.index t (1 : Fin 3) = t.val
    ∧ win0_2.index t (2 : Fin 3) = 0 :=
  (by decide +kernel : ∀ t : Fin grid0.N, _)

variable (V : (c : Dev nD) → (b : Ref sig .tc) → Buf (Elt Ideal) ((c : Thread nD τ).loc b))

/-- Block `t` of the gathered array at (l, p, k) is the array at (l, t * 2000 + p, k). -/
theorem blk0_read (c : Dev nD) (t : Fin cfg0.N) (l : Fin 4) (p : Fin 2000) (k : Fin 128) (e : Fin 400000)
    (he : e.val = t.val * 2000 + p.val) : iblk0 (F := Ideal) V c 0 t (ix3 l p k) = V c main_v8 (ix3 l e k) := by
  obtain ⟨a0, a1, a2, -⟩ := idx_facts t
  show V c main_v8 (((cfg0.win 0).blk t).view.emb (ix3 l p k)) = V c main_v8 (ix3 l e k)
  refine congrArg (V c main_v8) ?_
  funext a; apply Fin.ext
  match a with
  | ⟨0, _⟩ => show win0_0.index t (0 : Fin 3) * 4 + 1 * l.val = l.val; omega
  | ⟨1, _⟩ => show win0_0.index t (1 : Fin 3) * 2000 + 1 * p.val = e.val; omega
  | ⟨2, _⟩ => show win0_0.index t (2 : Fin 3) * 128 + 1 * k.val = k.val; omega

/-- The weight window's one block is the whole weight array. -/
theorem blk1_read (c : Dev nD) (t : Fin cfg0.N) (l : Fin 4) (k : Fin 128) (f : Fin 128) :
    iblk0 (F := Ideal) V c 1 t (ix3 l k f) = V c main_v0 (ix3 l k f) := by
  obtain ⟨-, -, -, b0, b1, b2, -⟩ := idx_facts t
  show V c main_v0 (((cfg0.win 1).blk t).view.emb (ix3 l k f)) = V c main_v0 (ix3 l k f)
  refine congrArg (V c main_v0) ?_
  funext a; apply Fin.ext
  match a with
  | ⟨0, _⟩ => show win0_1.index t (0 : Fin 3) * 4 + 1 * l.val = l.val; omega
  | ⟨1, _⟩ => show win0_1.index t (1 : Fin 3) * 128 + 1 * k.val = k.val; omega
  | ⟨2, _⟩ => show win0_1.index t (2 : Fin 3) * 128 + 1 * f.val = f.val; omega

/-! ## From blocks to the array -/

/-- What point `t` writes back is block `t` of the specification's messages of the arrays as the region finds them. -/
theorem flushed_eq (c : Dev nD) (t : Fin cfg0.N) :
    (dat0 (F := Ideal) V c).flushed 2 t
      = ((cfg0.win 2).blk t).view.read (Elt Ideal) (Cert.Ggnn.msgs (V c main_v8) (V c main_v0)) := by
  show (cfg0.win 2).cut (grid0.coords t) ((dat0 (F := Ideal) V c).after 2 t) = _
  rw [after0_2]
  unfold out0_2
  rw [View.canon_unit_zero hz]
  simp only [View.ld_unit_zero (S := S4x2000x128) hz, View.ld_unit_zero (S := S4x128x128) hz]
  obtain ⟨-, -, -, -, -, -, o0, o1, o2⟩ := idx_facts t
  funext j
  show k0_pay1 (F := Ideal) (iblk0 V c 0 t) (iblk0 V c 1 t) j
    = Cert.Ggnn.msgs (V c main_v8) (V c main_v0) (((cfg0.win 2).blk t).view.emb j)
  refine pay_eq_msgs (iblk0 V c 0 t) (iblk0 V c 1 t) (V c main_v8) (V c main_v0) t.val
    (fun l p k e he => blk0_read V c t l p k e he) (fun l k f => blk1_read V c t l k f) j _ ?_ ?_ ?_
  · show win0_2.index t (0 : Fin 3) * 4 + 1 * (j 0).val = (j 0).val; omega
  · show win0_2.index t (1 : Fin 3) * 2000 + 1 * (j 1).val = t.val * 2000 + (j 1).val; omega
  · show win0_2.index t (2 : Fin 3) * 128 + 1 * (j 2).val = (j 2).val; omega

/-- An index of the array is in point `t`'s block iff each coordinate is in the block's range on its axis. -/
theorem mem_blk (t : Fin cfg0.N) (i : S4x400000x128.Idx) :
    i ∈ ((cfg0.win 2).blk t).view.set ↔ ∀ a : Fin 3, win0_2.index t a * S4x2000x128.size a ≤ (i a).val ∧ (i a).val < win0_2.index t a * S4x2000x128.size a + S4x2000x128.size a := by
  show i ∈ ((View.whole main_v9).slice (win0_2.rect t)).set ↔ _
  rw [View.set_slice_whole, Rect.mem_set_unit]
  exact Iff.rfl

/-- Every index of the result is in some point's block: row `r` lies in block `r / 2000`. -/
theorem cover (i : S4x400000x128.Idx) :
    ∃ t : Fin cfg0.N, (cfg0.win 2).flush t = true ∧ i ∈ ((cfg0.win 2).blk t).view.set := by
  have hi0 : (i 0).val < 4 := (i 0).isLt
  have hi1 : (i 1).val < 400000 := (i 1).isLt
  have hi2 : (i 2).val < 128 := (i 2).isLt
  have hN : grid0.N = 200 := N_0
  obtain ⟨t, ht⟩ : ∃ t : Fin cfg0.N, t.val = (i 1).val / 2000 :=
    ⟨⟨(i 1).val / 2000, by show (i 1).val / 2000 < grid0.N; rw [hN]; omega⟩, rfl⟩
  obtain ⟨-, -, -, -, -, -, o0, o1, o2⟩ := idx_facts t
  refine ⟨t, flush0_2 t, ?_⟩
  rw [mem_blk]
  intro a
  match a with
  | ⟨0, _⟩ => show win0_2.index t (0 : Fin 3) * 4 ≤ (i 0).val ∧ (i 0).val < win0_2.index t (0 : Fin 3) * 4 + 4; omega
  | ⟨1, _⟩ => show win0_2.index t (1 : Fin 3) * 2000 ≤ (i 1).val ∧ (i 1).val < win0_2.index t (1 : Fin 3) * 2000 + 2000; omega
  | ⟨2, _⟩ => show win0_2.index t (2 : Fin 3) * 128 ≤ (i 2).val ∧ (i 2).val < win0_2.index t (2 : Fin 3) * 128 + 128; omega

/-- Region 0's result array after its last point: the specification's messages of the region's entry arrays. -/
theorem final (c : Dev nD) : (dat0 (F := Ideal) V c).arrAt 2 cfg0.N = Cert.Ggnn.msgs (V c main_v8) (V c main_v0) :=
  (dat0 (F := Ideal) V c).arrAt_eq_of_cover 2 (Cert.Ggnn.msgs (V c main_v8) (V c main_v0))
    (fun t _ => flushed_eq V c t) cover

end Cert.KernelIdeal.Reg0

end
-- ==== Proof.Reg1.lean ====
import proofs.«103885_j12103217840256_1_alg».proof.Proof.Gen.KernelIdeal.Frame
import proofs.«103885_j12103217840256_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Cert.KernelIdeal Cert.KernelIdeal.Gen Idealize.ShloMosaic Idealize.ShloMosaic.TcCoe Idealize.SL.Sem
open Idealize.ShloMosaic.Pipeline (Dat Cfg Window)
open Idealize.ShloMosaic.ValueIdx

/-! ## One matrix product of the body at an index

The body multiplies a [2000,128] block by a [128,128] matrix into a zero accumulator: entry (p, q) is the sum
over the 128 features k of left (p, k) * right (k, q). The four coordinate facts of the contraction's index maps
come first, each at its literal axis. -/

theorem lhs_ax0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_ax1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_ax0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_ax1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A block times a matrix into the zero accumulator, entry (p, q): the sum over the features. -/
theorem prod_apply {φ₁ φ₂ : FTy} (x : FVec Ideal S2000x128 φ₁) (w : FVec Ideal S128x128 φ₂) (p : Fin 2000) (q : Fin 128) :
    matmul dot_S2000x128_S128x128_S2000x128_1_0_0_1_n_n none x w (constant S2000x128 .f32 0x00000000#32) (ix2 p q)
      = ∑ k : Fin 128, x (ix2 p k) * w (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_ax0 _ _
    | ⟨1, _⟩ => exact (lhs_ax1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_ax0 _ _).trans hk
    | ⟨1, _⟩ => exact rhs_ax1 _ _)
  rw [el, er]

/-! ## The body's arithmetic at an index

Over block variables: A the aggregated messages and H the node states of the block's 2000 rows, and the six
weight matrices. Every format change is the identity on the extended reals and a reshape to the same shape is
the identity, so entry (p, q) of the body's result is the gated update written with sums over the 128 features. -/

/-- The lane-by-lane logistic at an index. -/
theorem logistic_apply {s : Shape} {φ : FTy} (a : FVec Ideal s φ) (i : s.Idx) : logistic a i = Ideal.logistic (a i) := rfl
/-- The lane-by-lane hyperbolic tangent at an index. -/
theorem tanh_apply {s : Shape} {φ : FTy} (a : FVec Ideal s φ) (i : s.Idx) : tanh a i = Ideal.tanh (a i) := rfl

/-- A gate of the block at (p, q): the logistic of the sum of the two products. -/
def gateB (A H : Vec Ideal S2000x128 .f32) (Wg Ug : Vec Ideal S128x128 .bf16) (p : Fin 2000) (q : Fin 128) : EReal :=
  Ideal.logistic ((∑ k : Fin 128, A (ix2 p k) * Wg (ix2 k q)) + ∑ k : Fin 128, H (ix2 p k) * Ug (ix2 k q))

theorem pay_apply (A H : Vec Ideal S2000x128 .f32) (Wz Uz Wr Ur W U : Vec Ideal S128x128 .bf16) (p : Fin 2000) (q : Fin 128) :
    k1_pay1 A H Wz Uz Wr Ur W U (ix2 p q) =
      (Cert.Ggnn.one32 - gateB A H Wz Uz p q) * H (ix2 p q)
        + gateB A H Wz Uz p q * Ideal.tanh ((∑ k : Fin 128, A (ix2 p k) * W (ix2 k q))
            + ∑ k : Fin 128, (gateB A H Wr Ur p k * H (ix2 p k)) * U (ix2 k q)) := by
  unfold k1_pay1
  simp only [shapeCast_self]
  simp only [addf_apply, mulf_apply, subf_apply, broadcast_apply, logistic_apply, tanh_apply, prod_apply, truncf_apply]
  rfl

/-! ## From the blocks to the array

Grid point t works on rows 2000 t … 2000 t + 1999: the message and state windows and the result window are at
block (t, 0), and each weight window is its whole matrix at every point. -/

variable (V : (c : Dev nD) → (b : Ref sig .tc) → Buf (Elt Ideal) ((c : Thread nD τ).loc b))

theorem hz : (![0, 0] : Fin 2 → Nat) = fun _ => 0 := funext fun a => by fin_cases a <;> rfl

/-- The row windows' block indices, decided over the 25 grid points: block (t, 0). -/
theorem idx_rows : ∀ t : Fin cfg1.N,
      (win1_0.index t (0 : Fin 2) = t.val ∧ win1_0.index t (1 : Fin 2) = 0)
    ∧ (win1_1.index t (0 : Fin 2) = t.val ∧ win1_1.index t (1 : Fin 2) = 0)
    ∧ (win1_8.index t (0 : Fin 2) = t.val ∧ win1_8.index t (1 : Fin 2) = 0) :=
  (by decide +kernel : ∀ t : Fin grid1.N, _)

/-- The weight windows' block indices, decided over the 25 grid points: block (0, 0). -/
theorem idx_w : ∀ t : Fin cfg1.N,
      (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0) :=
  (by decide +kernel : ∀ t : Fin grid1.N, _)

/-- Row p of block t is row 2000 t + p of the array. -/
def row (t : Fin cfg1.N) (p : Fin 2000) : Fin 50000 :=
  ⟨t.val * 2000 + p.val, by
    have ht : t.val < 25 := lt_of_lt_of_eq t.isLt N_1
    have hp := p.isLt
    omega⟩

theorem row_val (t : Fin cfg1.N) (p : Fin 2000) : (row t p).val = t.val * 2000 + p.val := rfl

/-- The message window's block at point t, read at (p, k), is the message array at row 2000 t + p. -/
theorem read_a (c : Dev nD) (t : Fin cfg1.N) (p : Fin 2000) (k : Fin 128) :
    (iblk1 V c 0 t : Vec Ideal S2000x128 .f32) (ix2 p k) = (V c main_v16 : Cert.Ggnn.Arr2 50000 128) (ix2 (row t p) k) := by
  obtain ⟨⟨e0, e1⟩, -, -⟩ := idx_rows t
  show V c main_v16 (((cfg1.win 0).blk t).view.emb (ix2 p k)) = V c main_v16 (ix2 (row t p) k)
  refine congrArg (V c main_v16) (funext fun a => Fin.ext ?_)
  match a with
  | ⟨0, _⟩ => show win1_0.index t (0 : Fin 2) * 2000 + 1 * p.val = t.val * 2000 + p.val; rw [e0]; omega
  | ⟨1, _⟩ => show win1_0.index t (1 : Fin 2) * 128 + 1 * k.val = k.val; rw [e1]; omega

/-- The state window's block at point t, read at (p, k), is the state array at row 2000 t + p. -/
theorem read_h (c : Dev nD) (t : Fin cfg1.N) (p : Fin 2000) (k : Fin 128) :
    (iblk1 V c 1 t : Vec Ideal S2000x128 .f32) (ix2 p k) = (V c main_arg0 : Cert.Ggnn.Arr2 50000 128) (ix2 (row t p) k) := by
  obtain ⟨-, ⟨e0, e1⟩, -⟩ := idx_rows t
  show V c main_arg0 (((cfg1.win 1).blk t).view.emb (ix2 p k)) = V c main_arg0 (ix2 (row t p) k)
  refine congrArg (V c main_arg0) (funext fun a => Fin.ext ?_)
  match a with
  | ⟨0, _⟩ => show win1_1.index t (0 : Fin 2) * 2000 + 1 * p.val = t.val * 2000 + p.val; rw [e0]; omega
  | ⟨1, _⟩ => show win1_1.index t (1 : Fin 2) * 128 + 1 * k.val = k.val; rw [e1]; omega

/-- Window 2 holds the whole matrix Wz: its one block read at (k, q) is the array there. -/
theorem read_w2 (c : Dev nD) (t : Fin cfg1.N) (k q : Fin 128) :
    (iblk1 V c 2 t : Vec Ideal S128x128 .bf16) (ix2 k q) = (V c main_v17 : Cert.Ggnn.Arr2 128 128) (ix2 k q) := by
  have e0 : win1_2.index t (0 : Fin 2) = 0 := (idx_w t).1.1
  have e1 : win1_2.index t (1 : Fin 2) = 0 := (idx_w t).1.2
  show V c main_v17 (((cfg1.win 2).blk t).view.emb (ix2 k q)) = V c main_v17 (ix2 k q)
  refine congrArg (V c main_v17) (funext fun a => Fin.ext ?_)
  match a with
  | ⟨0, _⟩ => show win1_2.index t (0 : Fin 2) * 128 + 1 * k.val = k.val; rw [e0]; omega
  | ⟨1, _⟩ => show win1_2.index t (1 : Fin 2) * 128 + 1 * q.val = q.val; rw [e1]; omega

/-- Window 3 holds the whole matrix Wr: its one block read at (k, q) is the array there. -/
theorem read_w3 (c : Dev nD) (t : Fin cfg1.N) (k q : Fin 128) :
    (iblk1 V c 3 t : Vec Ideal S128x128 .bf16) (ix2 k q) = (V c main_v18 : Cert.Ggnn.Arr2 128 128) (ix2 k q) := by
  have e0 : win1_3.index t (0 : Fin 2) = 0 := (idx_w t).2.1.1
  have e1 : win1_3.index t (1 : Fin 2) = 0 := (idx_w t).2.1.2
  show V c main_v18 (((cfg1.win 3).blk t).view.emb (ix2 k q)) = V c main_v18 (ix2 k q)
  refine congrArg (V c main_v18) (funext fun a => Fin.ext ?_)
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- Window 4 holds the whole matrix W: its one block read at (k, q) is the array there. -/
theorem read_w4 (c : Dev nD) (t : Fin cfg1.N) (k q : Fin 128) :
    (iblk1 V c 4 t : Vec Ideal S128x128 .bf16) (ix2 k q) = (V c main_v19 : Cert.Ggnn.Arr2 128 128) (ix2 k q) := by
  have e0 : win1_4.index t (0 : Fin 2) = 0 := (idx_w t).2.2.1.1
  have e1 : win1_4.index t (1 : Fin 2) = 0 := (idx_w t).2.2.1.2
  show V c main_v19 (((cfg1.win 4).blk t).view.emb (ix2 k q)) = V c main_v19 (ix2 k q)
  refine congrArg (V c main_v19) (funext fun a => Fin.ext ?_)
  match a with
  | ⟨0, _⟩ => show win1_4.index t (0 : Fin 2) * 128 + 1 * k.val = k.val; rw [e0]; omega
  | ⟨1, _⟩ => show win1_4.index t (1 : Fin 2) * 128 + 1 * q.val = q.val; rw [e1]; omega

/-- Window 5 holds the whole matrix Uz: its one block read at (k, q) is the array there. -/
theorem read_w5 (c : Dev nD) (t : Fin cfg1.N) (k q : Fin 128) :
    (iblk1 V c 5 t : Vec Ideal S128x128 .bf16) (ix2 k q) = (V c main_v20 : Cert.Ggnn.Arr2 128 128) (ix2 k q) := by
  have e0 : win1_5.index t (0 : Fin 2) = 0 := (idx_w t).2.2.2.1.1
  have e1 : win1_5.index t (1 : Fin 2) = 0 := (idx_w t).2.2.2.1.2
  show V c main_v20 (((cfg1.win 5).blk t).view.emb (ix2 k q)) = V c main_v20 (ix2 k q)
  refine congrArg (V c main_v20) (funext fun a => Fin.ext ?_)
  match a with
  | ⟨0, _⟩ => show win1_5.index t (0 : Fin 2) * 128 + 1 * k.val = k.val; rw [e0]; omega
  | ⟨1, _⟩ => show win1_5.index t (1 : Fin 2) * 128 + 1 * q.val = q.val; rw [e1]; omega

/-- Window 6 holds the whole matrix Ur: its one block read at (k, q) is the array there. -/
theorem read_w6 (c : Dev nD) (t : Fin cfg1.N) (k q : Fin 128) :
    (iblk1 V c 6 t : Vec Ideal S128x128 .bf16) (ix2 k q) = (V c main_v21 : Cert.Ggnn.Arr2 128 128) (ix2 k q) := by
  have e0 : win1_6.index t (0 : Fin 2) = 0 := (idx_w t).2.2.2.2.1.1
  have e1 : win1_6.index t (1 : Fin 2) = 0 := (idx_w t).2.2.2.2.1.2
  show V c main_v21 (((cfg1.win 6).blk t).view.emb (ix2 k q)) = V c main_v21 (ix2 k q)
  refine congrArg (V c main_v21) (funext fun a => Fin.ext ?_)
  match a with
  | ⟨0, _⟩ => show win1_6.index t (0 : Fin 2) * 128 + 1 * k.val = k.val; rw [e0]; omega
  | ⟨1, _⟩ => show win1_6.index t (1 : Fin 2) * 128 + 1 * q.val = q.val; rw [e1]; omega

/-- Window 7 holds the whole matrix U: its one block read at (k, q) is the array there. -/
theorem read_w7 (c : Dev nD) (t : Fin cfg1.N) (k q : Fin 128) :
    (iblk1 V c 7 t : Vec Ideal S128x128 .bf16) (ix2 k q) = (V c main_v22 : Cert.Ggnn.Arr2 128 128) (ix2 k q) := by
  have e0 : win1_7.index t (0 : Fin 2) = 0 := (idx_w t).2.2.2.2.2.1
  have e1 : win1_7.index t (1 : Fin 2) = 0 := (idx_w t).2.2.2.2.2.2
  show V c main_v22 (((cfg1.win 7).blk t).view.emb (ix2 k q)) = V c main_v22 (ix2 k q)
  refine congrArg (V c main_v22) (funext fun a => Fin.ext ?_)
  match a with
  | ⟨0, _⟩ => show win1_7.index t (0 : Fin 2) * 128 + 1 * k.val = k.val; rw [e0]; omega
  | ⟨1, _⟩ => show win1_7.index t (1 : Fin 2) * 128 + 1 * q.val = q.val; rw [e1]; omega

/-- The reset state at (n, k): the reset gate there times the state there. -/
theorem resetState_ix2 (a h : Cert.Ggnn.Arr2 50000 128) (Wr Ur : Cert.Ggnn.Arr2 128 128) (n : Fin 50000) (k : Fin 128) :
    Cert.Ggnn.resetState a h Wr Ur (ix2 n k) = Cert.Ggnn.gate a h Wr Ur n k * h (ix2 n k) := rfl

/-- Entry (p, q) of what point t's body computes is the gated update at row 2000 t + p, feature q. -/
theorem body_pt (c : Dev nD) (t : Fin cfg1.N) (p : Fin 2000) (q : Fin 128) :
    k1_pay1 (iblk1 V c 0 t) (iblk1 V c 1 t) (iblk1 V c 2 t) (iblk1 V c 5 t) (iblk1 V c 3 t) (iblk1 V c 6 t) (iblk1 V c 4 t) (iblk1 V c 7 t) (ix2 p q)
      = Cert.Ggnn.gru (V c main_v16) (V c main_arg0) (V c main_v17) (V c main_v18) (V c main_v19) (V c main_v20) (V c main_v21) (V c main_v22) (ix2 (row t p) q) := by
  refine (pay_apply (iblk1 V c 0 t) (iblk1 V c 1 t) (iblk1 V c 2 t) (iblk1 V c 5 t) (iblk1 V c 3 t) (iblk1 V c 6 t) (iblk1 V c 4 t) (iblk1 V c 7 t) p q).trans ?_
  rw [Cert.Ggnn.gru_ix2]
  simp only [Cert.Ggnn.gruAt, Cert.Ggnn.cand, Cert.Ggnn.gate, Cert.Ggnn.mm, resetState_ix2, gateB,
    read_a V c t p, read_h V c t p, read_w2 V c t, read_w3 V c t, read_w4 V c t, read_w5 V c t, read_w6 V c t, read_w7 V c t]

/-- What point t writes back is block t of the gated update of the arrays as the region finds them. -/
theorem flushed_eq (c : Dev nD) (t : Fin cfg1.N) :
    (dat1 (F := Ideal) V c).flushed 8 t = ((cfg1.win 8).blk t).view.read (Elt Ideal) (Cert.Ggnn.gru (V c main_v16) (V c main_arg0) (V c main_v17) (V c main_v18) (V c main_v19) (V c main_v20) (V c main_v21) (V c main_v22)) := by
  show (cfg1.win 8).cut (grid1.coords t) ((dat1 V c).after 8 t) = _
  rw [after1_8]
  unfold out1_8
  rw [View.canon_unit_zero hz]
  simp only [View.ld_unit_zero (S := S2000x128) hz, View.ld_unit_zero (S := S128x128) hz]
  obtain ⟨-, -, ⟨e0, e1⟩⟩ := idx_rows t
  funext j
  obtain ⟨p, q, rfl⟩ : ∃ (p : Fin 2000) (q : Fin 128), j = ix2 p q := ⟨j 0, j 1, eq_ix2 j⟩
  have he : ((cfg1.win 8).blk t).view.emb (ix2 p q) = ix2 (row t p) q := by
    funext a; apply Fin.ext
    match a with
    | ⟨0, _⟩ => show win1_8.index t (0 : Fin 2) * 2000 + 1 * p.val = t.val * 2000 + p.val; rw [e0]; omega
    | ⟨1, _⟩ => show win1_8.index t (1 : Fin 2) * 128 + 1 * q.val = q.val; rw [e1]; omega
  show k1_pay1 (iblk1 V c 0 t) (iblk1 V c 1 t) (iblk1 V c 2 t) (iblk1 V c 5 t) (iblk1 V c 3 t) (iblk1 V c 6 t) (iblk1 V c 4 t) (iblk1 V c 7 t) (ix2 p q)
      = Cert.Ggnn.gru (V c main_v16) (V c main_arg0) (V c main_v17) (V c main_v18) (V c main_v19) (V c main_v20) (V c main_v21) (V c main_v22) (((cfg1.win 8).blk t).view.emb (ix2 p q))
  rw [he]
  exact body_pt V c t p q

/-- An index of the result array is in point t's block iff each coordinate is in the block's range on its axis. -/
theorem mem_blk (t : Fin cfg1.N) (i : S50000x128.Idx) :
    i ∈ ((cfg1.win 8).blk t).view.set ↔ ∀ a : Fin 2, win1_8.index t a * S2000x128.size a ≤ (i a).val ∧ (i a).val < win1_8.index t a * S2000x128.size a + S2000x128.size a := by
  show i ∈ ((View.whole main_v23).slice (win1_8.rect t)).set ↔ _
  rw [View.set_slice_whole, Rect.mem_set_unit]
  exact Iff.rfl

/-- Every row r of the result array is in the block of point r / 2000, which writes back. -/
theorem cover (i : S50000x128.Idx) :
    ∃ t : Fin cfg1.N, (cfg1.win 8).flush t = true ∧ i ∈ ((cfg1.win 8).blk t).view.set := by
  have hi0 : (i 0).val < 50000 := (i 0).isLt
  have hi1 : (i 1).val < 128 := (i 1).isLt
  obtain ⟨t, ht⟩ : ∃ t : Fin cfg1.N, t.val = (i 0).val / 2000 :=
    ⟨⟨(i 0).val / 2000, lt_of_lt_of_eq (by omega : (i 0).val / 2000 < 25) N_1.symm⟩, rfl⟩
  obtain ⟨-, -, ⟨e0, e1⟩⟩ := idx_rows t
  refine ⟨t, flush1_8 t, ?_⟩
  rw [mem_blk]
  intro a
  match a with
  | ⟨0, _⟩ => show win1_8.index t (0 : Fin 2) * 2000 ≤ (i 0).val ∧ (i 0).val < win1_8.index t (0 : Fin 2) * 2000 + 2000; rw [e0, ht]; omega
  | ⟨1, _⟩ => show win1_8.index t (1 : Fin 2) * 128 ≤ (i 1).val ∧ (i 1).val < win1_8.index t (1 : Fin 2) * 128 + 128; rw [e1]; omega

/-- The result array after the region: the gated update of the arrays as the region finds them. -/
theorem final (c : Dev nD) : (dat1 (F := Ideal) V c).arrAt 8 cfg1.N = Cert.Ggnn.gru (V c main_v16) (V c main_arg0) (V c main_v17) (V c main_v18) (V c main_v19) (V c main_v20) (V c main_v21) (V c main_v22) :=
  (dat1 (F := Ideal) V c).arrAt_eq_of_cover 8 (Cert.Ggnn.gru (V c main_v16) (V c main_arg0) (V c main_v17) (V c main_v18) (V c main_v19) (V c main_v20) (V c main_v21) (V c main_v22))
    (fun t _ => flushed_eq V c t) cover

end Cert.KernelIdeal.Reg1

end
-- ==== Proof.Reg2.lean ====
import proofs.«103885_j12103217840256_1_alg».proof.Proof.Gen.KernelIdeal.Frame
import proofs.«103885_j12103217840256_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg2

open Cert.KernelIdeal Cert.KernelIdeal.Gen Idealize.ShloMosaic Idealize.ShloMosaic.TcCoe Idealize.SL.Sem
open Idealize.ShloMosaic.Pipeline (Dat Cfg Window)
open Idealize.ShloMosaic.ValueIdx (ix2 eq_ix2)

/-! ## The two matrix products at an index -/

/-- The left operand's index of the product over 128 terms: its row is the result's row. -/
theorem lhs128_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- Its column is the summation index. -/
theorem lhs128_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand's row is the summation index. -/
theorem rhs128_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- Its column is the result's column. -/
theorem rhs128_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A [2000,128] by [128,128] product into the zero accumulator, entry (p, q): the sum over k of a(p,k) * w(k,q). -/
theorem mm128_apply (a : FVec Ideal S2000x128 .bf16) (w : FVec Ideal S128x128 .bf16) (p : Fin 2000) (q : Fin 128) :
    FloatOps.matmul dot_S2000x128_S128x128_S2000x128_1_0_0_1_n_n none a w (constant (F := Ideal) S2000x128 .f32 0x00000000#32) (ix2 p q)
      = ∑ k : Fin 128, a (ix2 p k) * w (ix2 k q) := by
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs128_0 _ _
    | ⟨1, _⟩ => exact (lhs128_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs128_0 _ _).trans hk
    | ⟨1, _⟩ => exact rhs128_1 _ _)
  rw [el, er]

/-- The left operand's index of the product over 64 terms: its row is the result's row. -/
theorem lhs64_0 (i : S2000x128.Idx) (q : dot_S2000x64_S64x128_S2000x128_1_0_0_1_n_n.contr.Idx) :
    (dot_S2000x64_S64x128_S2000x128_1_0_0_1_n_n.lhsIdx i q 0).val = (i 0).val := by
  unfold DotDims.lhsIdx
  rw [dif_neg (show ¬(0 : Fin S2000x64.rank) ∈ dot_S2000x64_S64x128_S2000x128_1_0_0_1_n_n.lhsBatch by decide), dif_pos (show (0 : Fin S2000x64.rank) ∈ dot_S2000x64_S64x128_S2000x128_1_0_0_1_n_n.lhsNonContracting by decide)]
  rfl
/-- Its column is the summation index. -/
theorem lhs64_1 (i : S2000x128.Idx) (q : dot_S2000x64_S64x128_S2000x128_1_0_0_1_n_n.contr.Idx) :
    (dot_S2000x64_S64x128_S2000x128_1_0_0_1_n_n.lhsIdx i q 1).val = (q ⟨0, by decide⟩).val :=
  dot_S2000x64_S64x128_S2000x128_1_0_0_1_n_n.lhsIdx_val_of_single rfl i q
/-- The right operand's row is the summation index. -/
theorem rhs64_0 (i : S2000x128.Idx) (q : dot_S2000x64_S64x128_S2000x128_1_0_0_1_n_n.contr.Idx) :
    (dot_S2000x64_S64x128_S2000x128_1_0_0_1_n_n.rhsIdx i q 0).val = (q ⟨0, by decide⟩).val :=
  dot_S2000x64_S64x128_S2000x128_1_0_0_1_n_n.rhsIdx_val_of_single rfl i q
/-- Its column is the result's column. -/
theorem rhs64_1 (i : S2000x128.Idx) (q : dot_S2000x64_S64x128_S2000x128_1_0_0_1_n_n.contr.Idx) :
    (dot_S2000x64_S64x128_S2000x128_1_0_0_1_n_n.rhsIdx i q 1).val = (i 1).val := by
  unfold DotDims.rhsIdx
  rw [dif_neg (show ¬(1 : Fin S64x128.rank) ∈ dot_S2000x64_S64x128_S2000x128_1_0_0_1_n_n.rhsBatch by decide), dif_pos (show (1 : Fin S64x128.rank) ∈ dot_S2000x64_S64x128_S2000x128_1_0_0_1_n_n.rhsNonContracting by decide)]
  rfl

/-- A [2000,64] by [64,128] product into the zero accumulator, entry (p, q): the sum over k of a(p,k) * w(k,q). -/
theorem mm64_apply (a : FVec Ideal S2000x64 .bf16) (w : FVec Ideal S64x128 .bf16) (p : Fin 2000) (q : Fin 128) :
    FloatOps.matmul dot_S2000x64_S64x128_S2000x128_1_0_0_1_n_n none a w (constant (F := Ideal) S2000x128 .f32 0x00000000#32) (ix2 p q)
      = ∑ k : Fin 64, a (ix2 p k) * w (ix2 k q) := by
  rw [Ideal.matmul_constant_zero_apply, ← Equiv.sum_comp (ValueIdx.contrEquiv1 dot_S2000x64_S64x128_S2000x128_1_0_0_1_n_n 64 rfl rfl).symm]
  refine Finset.sum_congr rfl fun k _ => ?_
  have hk := ValueIdx.contrEquiv1_symm_val dot_S2000x64_S64x128_S2000x128_1_0_0_1_n_n 64 rfl rfl k
  have el : dot_S2000x64_S64x128_S2000x128_1_0_0_1_n_n.lhsIdx (ix2 p q) ((ValueIdx.contrEquiv1 dot_S2000x64_S64x128_S2000x128_1_0_0_1_n_n 64 rfl rfl).symm k) = ix2 p k := funext fun a => Fin.ext (by
    match a with
    | ⟨0, _⟩ => exact lhs64_0 _ _
    | ⟨1, _⟩ => exact (lhs64_1 _ _).trans hk)
  have er : dot_S2000x64_S64x128_S2000x128_1_0_0_1_n_n.rhsIdx (ix2 p q) ((ValueIdx.contrEquiv1 dot_S2000x64_S64x128_S2000x128_1_0_0_1_n_n 64 rfl rfl).symm k) = ix2 k q := funext fun a => Fin.ext (by
    match a with
    | ⟨0, _⟩ => exact (rhs64_0 _ _).trans hk
    | ⟨1, _⟩ => exact rhs64_1 _ _)
  rw [el, er]

/-! ## The body's result at an index -/

/-- The bias row broadcast down the 2000 rows, read at (p, q), is the row's entry q. -/
theorem bias_apply (b : FVec Ideal S1x128 .f32) (p : Fin 2000) (q : Fin 128) :
    broadcastTo S2000x128 b broadcasts_S1x128_S2000x128 (ix2 p q) = b (ix2 0 q) := by
  refine broadcastTo_apply b broadcasts_S1x128_S2000x128 (ix2 p q) (ix2 0 q) fun a => ?_
  match a with
  | ⟨0, _⟩ => rfl
  | ⟨1, _⟩ => rfl

/-- The body's stored value at (p, q): the state row times the upper matrix plus the annotation row times the lower
    one, plus the bias entry. The narrowing of the two left operands is the identity over the extended reals, and the
    two shape casts are to the same shape. -/
theorem pay_apply (h1 : Vec Ideal S2000x128 .f32) (x : Vec Ideal S2000x64 .f32) (rh : Vec Ideal S128x128 .bf16)
    (rx : Vec Ideal S64x128 .bf16) (b : Vec Ideal S1x128 .f32) (p : Fin 2000) (q : Fin 128) :
    k2_pay1 (F := Ideal) h1 x rh rx b (ix2 p q)
      = (∑ k : Fin 128, h1 (ix2 p k) * rh (ix2 k q) + ∑ k : Fin 64, x (ix2 p k) * rx (ix2 k q)) + b (ix2 0 q) := by
  unfold k2_pay1
  show (FloatOps.matmul dot_S2000x128_S128x128_S2000x128_1_0_0_1_n_n none
          (truncf .bf16 (shapeCast S2000x128 h1 shapeCasts_S2000x128_S2000x128) bitsLt_bf16_f32)
          (shapeCast S128x128 rh shapeCasts_S128x128_S128x128) (constant (F := Ideal) S2000x128 .f32 0x00000000#32) (ix2 p q)
        + FloatOps.matmul dot_S2000x64_S64x128_S2000x128_1_0_0_1_n_n none (truncf .bf16 x bitsLt_bf16_f32)
          (shapeCast S64x128 rx shapeCasts_S64x128_S64x128) (constant (F := Ideal) S2000x128 .f32 0x00000000#32) (ix2 p q))
      + broadcastTo S2000x128 b broadcasts_S1x128_S2000x128 (ix2 p q) = _
  rw [shapeCast_self, shapeCast_self, shapeCast_self, mm128_apply, mm64_apply, bias_apply]
  rfl

variable (V : (c : Dev nD) → (b : Ref sig .tc) → Buf (Elt Ideal) ((c : Thread nD τ).loc b))

/-! ## From the blocks to the array -/

theorem zero_offsets : (![0, 0] : Fin 2 → Nat) = fun _ => 0 := funext fun a => by fin_cases a <;> rfl

/-- The grid has 25 points. -/
theorem point_lt (t : Fin cfg2.N) : t.val < 25 := lt_of_lt_of_eq t.isLt N_2

/-- The index maps over the grid: the state, the annotation and the result move down their rows with the
    point, 2000 rows a block; the two matrices and the bias row stay whole. -/
theorem index_facts : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The state's block at point t, entry (p, k), is the state's entry (2000 t + p, k). -/
theorem state_block (c : Dev nD) (t : Fin cfg2.N) (p : Fin 2000) (k : Fin 128) (n : Fin 50000)
    (hn : n.val = t.val * 2000 + p.val) :
    (iblk2 V c 0 t : Vec Ideal S2000x128 .f32) (ix2 p k) = (V c main_v23 : S50000x128.Idx → Elt Ideal .f32) (ix2 n k) := by
  obtain ⟨e0, e1, -⟩ := index_facts t
  show V c main_v23 (((cfg2.win 0).blk t).view.emb (ix2 p k)) = V c main_v23 (ix2 n k)
  refine congrArg (V c main_v23) (funext fun a => Fin.ext ?_)
  match a with
  | ⟨0, _⟩ => show win2_0.index t (0 : Fin 2) * 2000 + 1 * p.val = n.val; omega
  | ⟨1, _⟩ => show win2_0.index t (1 : Fin 2) * 128 + 1 * k.val = k.val; omega

/-- The annotation's block at point t, entry (p, k), is the annotation's entry (2000 t + p, k). -/
theorem annot_block (c : Dev nD) (t : Fin cfg2.N) (p : Fin 2000) (k : Fin 64) (n : Fin 50000)
    (hn : n.val = t.val * 2000 + p.val) :
    (iblk2 V c 1 t : Vec Ideal S2000x64 .f32) (ix2 p k) = (V c main_arg1 : S50000x64.Idx → Elt Ideal .f32) (ix2 n k) := by
  obtain ⟨-, -, e0, e1, -⟩ := index_facts t
  show V c main_arg1 (((cfg2.win 1).blk t).view.emb (ix2 p k)) = V c main_arg1 (ix2 n k)
  refine congrArg (V c main_arg1) (funext fun a => Fin.ext ?_)
  match a with
  | ⟨0, _⟩ => show win2_1.index t (0 : Fin 2) * 2000 + 1 * p.val = n.val; omega
  | ⟨1, _⟩ => show win2_1.index t (1 : Fin 2) * 64 + 1 * k.val = k.val; omega

/-- The upper matrix's block is the whole matrix at every point. -/
theorem upper_block (c : Dev nD) (t : Fin cfg2.N) (k : Fin 128) (q : Fin 128) :
    (iblk2 V c 2 t : Vec Ideal S128x128 .bf16) (ix2 k q) = (V c main_v25 : S128x128.Idx → Elt Ideal .bf16) (ix2 k q) := by
  obtain ⟨-, -, -, -, e0, e1, -⟩ := index_facts t
  show V c main_v25 (((cfg2.win 2).blk t).view.emb (ix2 k q)) = V c main_v25 (ix2 k q)
  refine congrArg (V c main_v25) (funext fun a => Fin.ext ?_)
  match a with
  | ⟨0, _⟩ => show win2_2.index t (0 : Fin 2) * 128 + 1 * k.val = k.val; omega
  | ⟨1, _⟩ => show win2_2.index t (1 : Fin 2) * 128 + 1 * q.val = q.val; omega

/-- The lower matrix's block is the whole matrix at every point. -/
theorem lower_block (c : Dev nD) (t : Fin cfg2.N) (k : Fin 64) (q : Fin 128) :
    (iblk2 V c 3 t : Vec Ideal S64x128 .bf16) (ix2 k q) = (V c main_v27 : S64x128.Idx → Elt Ideal .bf16) (ix2 k q) := by
  obtain ⟨-, -, -, -, -, -, e0, e1, -⟩ := index_facts t
  show V c main_v27 (((cfg2.win 3).blk t).view.emb (ix2 k q)) = V c main_v27 (ix2 k q)
  refine congrArg (V c main_v27) (funext fun a => Fin.ext ?_)
  match a with
  | ⟨0, _⟩ => show win2_3.index t (0 : Fin 2) * 64 + 1 * k.val = k.val; omega
  | ⟨1, _⟩ => show win2_3.index t (1 : Fin 2) * 128 + 1 * q.val = q.val; omega

/-- The bias row's block is the whole row at every point. -/
theorem bias_block (c : Dev nD) (t : Fin cfg2.N) (z : Fin 1) (q : Fin 128) :
    (iblk2 V c 4 t : Vec Ideal S1x128 .f32) (ix2 z q) = (V c main_arg13 : S1x128.Idx → Elt Ideal .f32) (ix2 z q) := by
  obtain ⟨-, -, -, -, -, -, -, -, e0, e1, -⟩ := index_facts t
  show V c main_arg13 (((cfg2.win 4).blk t).view.emb (ix2 z q)) = V c main_arg13 (ix2 z q)
  refine congrArg (V c main_arg13) (funext fun a => Fin.ext ?_)
  match a with
  | ⟨0, _⟩ => show win2_4.index t (0 : Fin 2) * 1 + 1 * z.val = z.val; omega
  | ⟨1, _⟩ => show win2_4.index t (1 : Fin 2) * 128 + 1 * q.val = q.val; omega

/-- The result's block at point t sits at rows 2000 t … 2000 t + 1999. -/
theorem result_block (t : Fin cfg2.N) (p : Fin 2000) (q : Fin 128) (n : Fin 50000)
    (hn : n.val = t.val * 2000 + p.val) :
    (((cfg2.win 5).blk t).view.emb (ix2 p q) : S50000x128.Idx) = ix2 n q := by
  obtain ⟨-, -, -, -, -, -, -, -, -, -, e0, e1⟩ := index_facts t
  refine funext fun a => Fin.ext ?_
  match a with
  | ⟨0, _⟩ => show win2_5.index t (0 : Fin 2) * 2000 + 1 * p.val = n.val; omega
  | ⟨1, _⟩ => show win2_5.index t (1 : Fin 2) * 128 + 1 * q.val = q.val; omega

/-- WHAT POINT t WRITES BACK is block t of the read-out of the arrays as the region finds them. -/
theorem flushed_eq (c : Dev nD) (t : Fin cfg2.N) :
    (dat2 (F := Ideal) V c).flushed 5 t = ((cfg2.win 5).blk t).view.read (Elt Ideal)
      (Cert.Ggnn.proj (V c main_v23) (V c main_arg1) (V c main_v25) (V c main_v27) (V c main_arg13)) := by
  show (cfg2.win 5).cut (grid2.coords t) ((dat2 V c).after 5 t) = _
  rw [after2_5]
  unfold out2_5
  rw [View.canon_unit_zero zero_offsets]
  simp only [View.ld_unit_zero (S := S2000x128) zero_offsets, View.ld_unit_zero (S := S2000x64) zero_offsets,
    View.ld_unit_zero (S := S128x128) zero_offsets, View.ld_unit_zero (S := S64x128) zero_offsets,
    View.ld_unit_zero (S := S1x128) zero_offsets]
  funext j
  obtain ⟨p, q, rfl⟩ : ∃ (p : Fin 2000) (q : Fin 128), j = ix2 p q := ⟨j 0, j 1, eq_ix2 j⟩
  have ht := point_lt t
  obtain ⟨n, hn⟩ : ∃ n : Fin 50000, n.val = t.val * 2000 + p.val := ⟨⟨t.val * 2000 + p.val, by have := p.isLt; omega⟩, rfl⟩
  show k2_pay1 (F := Ideal) (iblk2 V c 0 t) (iblk2 V c 1 t) (iblk2 V c 2 t) (iblk2 V c 3 t) (iblk2 V c 4 t) (ix2 p q)
    = Cert.Ggnn.proj (V c main_v23) (V c main_arg1) (V c main_v25) (V c main_v27) (V c main_arg13)
        (((cfg2.win 5).blk t).view.emb (ix2 p q))
  rw [result_block t p q n hn, Cert.Ggnn.proj_ix2]
  refine (pay_apply _ _ _ _ _ p q).trans ?_
  unfold Cert.Ggnn.projAt
  refine congrArg₂ (· + ·) (congrArg₂ (· + ·) (Finset.sum_congr rfl fun k _ => ?_) (Finset.sum_congr rfl fun k _ => ?_)) ?_
  · exact congrArg₂ (· * ·) (state_block V c t p k n hn) (upper_block V c t k q)
  · exact congrArg₂ (· * ·) (annot_block V c t p k n hn) (lower_block V c t k q)
  · exact bias_block V c t 0 q

/-- An index of the result is in point t's block iff each coordinate is in the block's range on its axis. -/
theorem mem_block (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v28).slice (win2_5.rect t)).set ↔ _
  rw [View.set_slice_whole, Rect.mem_set_unit]
  exact Iff.rfl

/-- Every row r of the result is in the block of the point r / 2000. -/
theorem covered (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ : ∃ t : Fin cfg2.N, t.val = (i 0).val / 2000 :=
    ⟨⟨(i 0).val / 2000, lt_of_lt_of_eq (by omega : (i 0).val / 2000 < 25) N_2.symm⟩, rfl⟩
  obtain ⟨-, -, -, -, -, -, -, -, -, -, e0, e1⟩ := index_facts t
  refine ⟨t, flush2_5 t, ?_⟩
  rw [mem_block]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 128 ≤ (i 1).val ∧ (i 1).val < win2_5.index t (1 : Fin 2) * 128 + 128; omega

theorem final (c : Dev nD) : (dat2 (F := Ideal) V c).arrAt 5 cfg2.N = Cert.Ggnn.proj (V c main_v23) (V c main_arg1) (V c main_v25) (V c main_v27) (V c main_arg13) :=
  (dat2 (F := Ideal) V c).arrAt_eq_of_cover 5 _ (fun t _ => flushed_eq V c t) covered

end Cert.KernelIdeal.Reg2

end
-- ==== Proof.HostK.lean ====
/-
  The kernel program's result as ONE function of its argument arrays.

  Between the three grids the program runs plain array operations: before the first, the source node of every edge is
  looked up (a gather of the node states by the edge's source index, negative indices counted from the end) and every
  weight is only re-typed; between the first and the second, the messages are flattened over edge types, added into
  their destination nodes (a scatter-add into zeros) and shifted by a bias row; between the second and the third, the
  read-out matrix is cut into its upper 128 and lower 64 rows. No operation and no grid writes an argument array, so at
  every boundary an argument holds what it was launched with. Reading the result buffer back through these boundaries,
  with each grid's output array given by its block-by-block value, gives the composition
  read-out (update (aggregate (messages (gather h src) W) dst b) h …) x ….
-/
import proofs.«103885_j12103217840256_1_alg».proof.Proof.Gen.KernelIdeal.Frame
import proofs.«103885_j12103217840256_1_alg».proof.Proof.Spec
import proofs.«103885_j12103217840256_1_alg».proof.Proof.Reg0
import proofs.«103885_j12103217840256_1_alg».proof.Proof.Reg1
import proofs.«103885_j12103217840256_1_alg».proof.Proof.Reg2
import Idealize.ShloMosaic.Lib.StableHlo.Run

set_option maxRecDepth 16384

noncomputable section

namespace Cert.KernelIdeal.HostK

open Cert.KernelIdeal Cert.KernelIdeal.Gen Idealize.ShloMosaic Idealize.ShloMosaic.TcCoe Idealize.SL.Sem Idealize.ShloMosaic.StableHlo

/-! ## The array operations between the grids, as functions -/

/-- The source index of every edge as an index column: a negative index counts from the end of the 50000 nodes. -/
def srcCol (x2 : IVec S4x400000 32) : IVec S4x400000x1 32 :=
  broadcastInDim S4x400000x1 ![0, 1] bcast_S4x400000_S4x400000x1_0_1
    (select (cmpi .slt x2 (broadcastInDim S4x400000 ![] bcast_S_S4x400000 (constantI S_ 32 0#32)))
      (addi x2 (broadcastInDim S4x400000 ![] bcast_S_S4x400000 (constantI S_ 32 50000#32))) x2)

/-- The source node's state for every edge of every type. -/
def gath (x0 : FVec Ideal S50000x128 .f32) (x2 : IVec S4x400000 32) : FVec Ideal S4x400000x128 .f32 :=
  Host.gather gather_S50000x128_S4x400000x1_S4x400000x128_2_0_n_n_0_2_1128 x0 (srcCol x2)

/-- The messages summed into their destination nodes, plus the bias row. -/
def agg (u : FVec Ideal S4x400000x128 .f32) (x3 : IVec S4x400000 32) (x5 : FVec Ideal S1x128 .f32) : FVec Ideal S50000x128 .f32 :=
  addf
    (Host.scatterAdd scatter_S50000x128_S1600000x1_S1600000x128_1_0_0_1
      (broadcastInDim S50000x128 ![] bcast_S_S50000x128 (constant S_ .f32 0x00000000#32))
      (broadcastInDim S1600000x1 ![0] bcast_S1600000_S1600000x1_0 (shapeCast S1600000 x3 shapeCasts_S4x400000_S1600000))
      (shapeCast S1600000x128 u shapeCasts_S4x400000x128_S1600000x128))
    (broadcastInDim S50000x128 ![0, 1] bcast_S1x128_S50000x128_0_1 x5)

/-- The upper 128 rows of the read-out matrix. -/
def repLo (x12 : FVec Ideal S192x128 .f32) : FVec Ideal S128x128 .f32 :=
  extractStridedSlice S128x128 ![0, 0] x12 slices_S192x128_S128x128_0_0

/-- The lower 64 rows of the read-out matrix. -/
def repHi (x12 : FVec Ideal S192x128 .f32) : FVec Ideal S64x128 .f32 :=
  extractStridedSlice S64x128 ![128, 0] x12 slices_S192x128_S64x128_128_0

/-- The whole program as one function of its arguments. -/
def kfun (x0 : FVec Ideal S50000x128 .f32) (x1 : FVec Ideal S50000x64 .f32) (x2 x3 : IVec S4x400000 32)
    (x4 : FVec Ideal S4x128x128 .f32) (x5 : FVec Ideal S1x128 .f32) (x6 x7 x8 x9 x10 x11 : FVec Ideal S128x128 .f32)
    (x12 : FVec Ideal S192x128 .f32) (x13 : FVec Ideal S1x128 .f32) : FVec Ideal S50000x128 .f32 :=
  Cert.Ggnn.proj (Cert.Ggnn.gru (agg (Cert.Ggnn.msgs (gath x0 x2) x4) x3 x5) x0 x6 x7 x8 x9 x10 x11) x1 (repLo x12) (repHi x12) x13

variable (m : (ℓ : Loc nD τ sig) → Buf (Elt Ideal) ℓ) (ρ : Dev nD → PrngReg)

/-! ## An argument array at each boundary holds its launch contents -/
theorem W1_arg0 (c : Dev nD) : W1 m ρ c (Proc.devRef .tc main_arg0) = m ((c : Thread nD τ).loc main_arg0) :=
  StableHlo.after_of_forall_not_mem (b := Proc.devRef .tc main_arg0) _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
theorem W1_arg1 (c : Dev nD) : W1 m ρ c (Proc.devRef .tc main_arg1) = m ((c : Thread nD τ).loc main_arg1) :=
  StableHlo.after_of_forall_not_mem (b := Proc.devRef .tc main_arg1) _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
theorem W1_arg2 (c : Dev nD) : W1 m ρ c (Proc.devRef .tc main_arg2) = m ((c : Thread nD τ).loc main_arg2) :=
  StableHlo.after_of_forall_not_mem (b := Proc.devRef .tc main_arg2) _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
theorem W1_arg3 (c : Dev nD) : W1 m ρ c (Proc.devRef .tc main_arg3) = m ((c : Thread nD τ).loc main_arg3) :=
  StableHlo.after_of_forall_not_mem (b := Proc.devRef .tc main_arg3) _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
theorem W1_arg4 (c : Dev nD) : W1 m ρ c (Proc.devRef .tc main_arg4) = m ((c : Thread nD τ).loc main_arg4) :=
  StableHlo.after_of_forall_not_mem (b := Proc.devRef .tc main_arg4) _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
theorem W1_arg5 (c : Dev nD) : W1 m ρ c (Proc.devRef .tc main_arg5) = m ((c : Thread nD τ).loc main_arg5) :=
  StableHlo.after_of_forall_not_mem (b := Proc.devRef .tc main_arg5) _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
theorem W1_arg6 (c : Dev nD) : W1 m ρ c (Proc.devRef .tc main_arg6) = m ((c : Thread nD τ).loc main_arg6) :=
  StableHlo.after_of_forall_not_mem (b := Proc.devRef .tc main_arg6) _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
theorem W1_arg7 (c : Dev nD) : W1 m ρ c (Proc.devRef .tc main_arg7) = m ((c : Thread nD τ).loc main_arg7) :=
  StableHlo.after_of_forall_not_mem (b := Proc.devRef .tc main_arg7) _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
theorem W1_arg8 (c : Dev nD) : W1 m ρ c (Proc.devRef .tc main_arg8) = m ((c : Thread nD τ).loc main_arg8) :=
  StableHlo.after_of_forall_not_mem (b := Proc.devRef .tc main_arg8) _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
theorem W1_arg9 (c : Dev nD) : W1 m ρ c (Proc.devRef .tc main_arg9) = m ((c : Thread nD τ).loc main_arg9) :=
  StableHlo.after_of_forall_not_mem (b := Proc.devRef .tc main_arg9) _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
theorem W1_arg10 (c : Dev nD) : W1 m ρ c (Proc.devRef .tc main_arg10) = m ((c : Thread nD τ).loc main_arg10) :=
  StableHlo.after_of_forall_not_mem (b := Proc.devRef .tc main_arg10) _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
theorem W1_arg11 (c : Dev nD) : W1 m ρ c (Proc.devRef .tc main_arg11) = m ((c : Thread nD τ).loc main_arg11) :=
  StableHlo.after_of_forall_not_mem (b := Proc.devRef .tc main_arg11) _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
theorem W1_arg12 (c : Dev nD) : W1 m ρ c (Proc.devRef .tc main_arg12) = m ((c : Thread nD τ).loc main_arg12) :=
  StableHlo.after_of_forall_not_mem (b := Proc.devRef .tc main_arg12) _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
theorem W1_arg13 (c : Dev nD) : W1 m ρ c (Proc.devRef .tc main_arg13) = m ((c : Thread nD τ).loc main_arg13) :=
  StableHlo.after_of_forall_not_mem (b := Proc.devRef .tc main_arg13) _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
theorem W2_arg0 (c : Dev nD) : W2 m ρ c (Proc.devRef .tc main_arg0) = m ((c : Thread nD τ).loc main_arg0) :=
  (W2_of_ne m ρ c main_arg0 (by decide)).trans (W1_arg0 m ρ c)
theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W2_arg10 (c : Dev nD) : W2 m ρ c (Proc.devRef .tc main_arg10) = m ((c : Thread nD τ).loc main_arg10) :=
  (W2_of_ne m ρ c main_arg10 (by decide)).trans (W1_arg10 m ρ c)
theorem W2_arg11 (c : Dev nD) : W2 m ρ c (Proc.devRef .tc main_arg11) = m ((c : Thread nD τ).loc main_arg11) :=
  (W2_of_ne m ρ c main_arg11 (by decide)).trans (W1_arg11 m ρ c)
theorem W2_arg12 (c : Dev nD) : W2 m ρ c (Proc.devRef .tc main_arg12) = m ((c : Thread nD τ).loc main_arg12) :=
  (W2_of_ne m ρ c main_arg12 (by decide)).trans (W1_arg12 m ρ c)
theorem W2_arg13 (c : Dev nD) : W2 m ρ c (Proc.devRef .tc main_arg13) = m ((c : Thread nD τ).loc main_arg13) :=
  (W2_of_ne m ρ c main_arg13 (by decide)).trans (W1_arg13 m ρ c)
theorem W3_arg0 (c : Dev nD) : W3 m ρ c (Proc.devRef .tc main_arg0) = m ((c : Thread nD τ).loc main_arg0) :=
  (StableHlo.after_of_forall_not_mem (b := Proc.devRef .tc main_arg0) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W2_arg0 m ρ c)
theorem W3_arg1 (c : Dev nD) : W3 m ρ c (Proc.devRef .tc main_arg1) = m ((c : Thread nD τ).loc main_arg1) :=
  (StableHlo.after_of_forall_not_mem (b := Proc.devRef .tc main_arg1) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W2_arg1 m ρ c)
theorem W3_arg12 (c : Dev nD) : W3 m ρ c (Proc.devRef .tc main_arg12) = m ((c : Thread nD τ).loc main_arg12) :=
  (StableHlo.after_of_forall_not_mem (b := Proc.devRef .tc main_arg12) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W2_arg12 m ρ c)
theorem W3_arg13 (c : Dev nD) : W3 m ρ c (Proc.devRef .tc main_arg13) = m ((c : Thread nD τ).loc main_arg13) :=
  (StableHlo.after_of_forall_not_mem (b := Proc.devRef .tc main_arg13) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W2_arg13 m ρ c)
theorem W4_arg1 (c : Dev nD) : W4 m ρ c (Proc.devRef .tc main_arg1) = m ((c : Thread nD τ).loc main_arg1) :=
  (W4_of_ne m ρ c main_arg1 (by decide)).trans (W3_arg1 m ρ c)
theorem W4_arg12 (c : Dev nD) : W4 m ρ c (Proc.devRef .tc main_arg12) = m ((c : Thread nD τ).loc main_arg12) :=
  (W4_of_ne m ρ c main_arg12 (by decide)).trans (W3_arg12 m ρ c)
theorem W4_arg13 (c : Dev nD) : W4 m ρ c (Proc.devRef .tc main_arg13) = m ((c : Thread nD τ).loc main_arg13) :=
  (W4_of_ne m ρ c main_arg13 (by decide)).trans (W3_arg13 m ρ c)
theorem W5_arg1 (c : Dev nD) : W5 m ρ c (Proc.devRef .tc main_arg1) = m ((c : Thread nD τ).loc main_arg1) :=
  (StableHlo.after_of_forall_not_mem (b := Proc.devRef .tc main_arg1) _ _ (List.forall_iff_forall_mem.mp (by
      simp only [hostOps2, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W4_arg1 m ρ c)
theorem W5_arg13 (c : Dev nD) : W5 m ρ c (Proc.devRef .tc main_arg13) = m ((c : Thread nD τ).loc main_arg13) :=
  (StableHlo.after_of_forall_not_mem (b := Proc.devRef .tc main_arg13) _ _ (List.forall_iff_forall_mem.mp (by
      simp only [hostOps2, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W4_arg13 m ρ c)

/-! ## What each grid finds in its input arrays -/

/-- The first grid's edge operand: the gathered source states (re-typed, which changes no value). -/
theorem V1_v8 (c : Dev nD) : (V1 m ρ c main_v8 : S4x400000x128.Idx → EReal) = gath (m ((c : Thread nD τ).loc main_arg0)) (m ((c : Thread nD τ).loc main_arg2)) := by
  show StableHlo.after hostOps0 (W0 m ρ c) (Proc.devRef .tc main_v8) = _
  after_results
  rfl

/-- The first grid's weight operand: the per-type weights. -/
theorem V1_v0 (c : Dev nD) : (V1 m ρ c main_v0 : S4x128x128.Idx → EReal) = m ((c : Thread nD τ).loc main_arg4) := by
  show StableHlo.after hostOps0 (W0 m ρ c) (Proc.devRef .tc main_v0) = _
  after_results
  rfl

/-- After the first grid the message array holds the per-type products. -/
theorem W2_v9 (c : Dev nD) : (W2 m ρ c (Proc.devRef .tc main_v9) : S4x400000x128.Idx → EReal)
    = Cert.Ggnn.msgs (gath (m ((c : Thread nD τ).loc main_arg0)) (m ((c : Thread nD τ).loc main_arg2))) (m ((c : Thread nD τ).loc main_arg4)) := by
  have h := (W2_arr m ρ c 2).trans (Cert.KernelIdeal.Reg0.final (V1 m ρ) c)
  rw [V1_v8, V1_v0] at h
  exact h

/-- The second grid's message operand: the aggregated messages. -/
theorem V3_v16 (c : Dev nD) : (V3 m ρ c main_v16 : S50000x128.Idx → EReal)
    = agg (Cert.Ggnn.msgs (gath (m ((c : Thread nD τ).loc main_arg0)) (m ((c : Thread nD τ).loc main_arg2))) (m ((c : Thread nD τ).loc main_arg4))) (m ((c : Thread nD τ).loc main_arg3)) (m ((c : Thread nD τ).loc main_arg5)) := by
  have e : (V3 m ρ c main_v16 : S50000x128.Idx → EReal)
      = agg (W2 m ρ c (Proc.devRef .tc main_v9)) (W2 m ρ c (Proc.devRef .tc main_arg3)) (W2 m ρ c (Proc.devRef .tc main_arg5)) := by
    show StableHlo.after hostOps1 (W2 m ρ c) (Proc.devRef .tc main_v16) = _
    after_results
    rfl
  rw [e, W2_v9, W2_arg3, W2_arg5]

/-- The second grid's state operand: the node states as launched. -/
theorem V3_arg0 (c : Dev nD) : V3 m ρ c main_arg0 = m ((c : Thread nD τ).loc main_arg0) := W3_arg0 m ρ c

theorem V3_v17 (c : Dev nD) : (V3 m ρ c main_v17 : S128x128.Idx → EReal) = m ((c : Thread nD τ).loc main_arg6) := by
  have e : (V3 m ρ c main_v17 : S128x128.Idx → EReal) = W2 m ρ c (Proc.devRef .tc main_arg6) := by
    show StableHlo.after hostOps1 (W2 m ρ c) (Proc.devRef .tc main_v17) = _
    after_results
    rfl
  rw [e, W2_arg6]

theorem V3_v18 (c : Dev nD) : (V3 m ρ c main_v18 : S128x128.Idx → EReal) = m ((c : Thread nD τ).loc main_arg7) := by
  have e : (V3 m ρ c main_v18 : S128x128.Idx → EReal) = W2 m ρ c (Proc.devRef .tc main_arg7) := by
    show StableHlo.after hostOps1 (W2 m ρ c) (Proc.devRef .tc main_v18) = _
    after_results
    rfl
  rw [e, W2_arg7]

theorem V3_v19 (c : Dev nD) : (V3 m ρ c main_v19 : S128x128.Idx → EReal) = m ((c : Thread nD τ).loc main_arg8) := by
  have e : (V3 m ρ c main_v19 : S128x128.Idx → EReal) = W2 m ρ c (Proc.devRef .tc main_arg8) := by
    show StableHlo.after hostOps1 (W2 m ρ c) (Proc.devRef .tc main_v19) = _
    after_results
    rfl
  rw [e, W2_arg8]

theorem V3_v20 (c : Dev nD) : (V3 m ρ c main_v20 : S128x128.Idx → EReal) = m ((c : Thread nD τ).loc main_arg9) := by
  have e : (V3 m ρ c main_v20 : S128x128.Idx → EReal) = W2 m ρ c (Proc.devRef .tc main_arg9) := by
    show StableHlo.after hostOps1 (W2 m ρ c) (Proc.devRef .tc main_v20) = _
    after_results
    rfl
  rw [e, W2_arg9]

theorem V3_v21 (c : Dev nD) : (V3 m ρ c main_v21 : S128x128.Idx → EReal) = m ((c : Thread nD τ).loc main_arg10) := by
  have e : (V3 m ρ c main_v21 : S128x128.Idx → EReal) = W2 m ρ c (Proc.devRef .tc main_arg10) := by
    show StableHlo.after hostOps1 (W2 m ρ c) (Proc.devRef .tc main_v21) = _
    after_results
    rfl
  rw [e, W2_arg10]

theorem V3_v22 (c : Dev nD) : (V3 m ρ c main_v22 : S128x128.Idx → EReal) = m ((c : Thread nD τ).loc main_arg11) := by
  have e : (V3 m ρ c main_v22 : S128x128.Idx → EReal) = W2 m ρ c (Proc.devRef .tc main_arg11) := by
    show StableHlo.after hostOps1 (W2 m ρ c) (Proc.devRef .tc main_v22) = _
    after_results
    rfl
  rw [e, W2_arg11]

/-- After the second grid the state array holds the gated update. -/
theorem W4_v23 (c : Dev nD) : (W4 m ρ c (Proc.devRef .tc main_v23) : S50000x128.Idx → EReal)
    = Cert.Ggnn.gru (agg (Cert.Ggnn.msgs (gath (m ((c : Thread nD τ).loc main_arg0)) (m ((c : Thread nD τ).loc main_arg2))) (m ((c : Thread nD τ).loc main_arg4))) (m ((c : Thread nD τ).loc main_arg3)) (m ((c : Thread nD τ).loc main_arg5))) (m ((c : Thread nD τ).loc main_arg0))
        (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have h := (W4_arr m ρ c 8).trans (Cert.KernelIdeal.Reg1.final (V3 m ρ) c)
  rw [V3_v16, V3_arg0, V3_v17, V3_v18, V3_v19, V3_v20, V3_v21, V3_v22] at h
  exact h

/-- The third grid's state operand: what the second grid left. -/
theorem V5_v23 (c : Dev nD) : V5 m ρ c main_v23 = W4 m ρ c (Proc.devRef .tc main_v23) :=
  StableHlo.after_of_forall_not_mem (b := Proc.devRef .tc main_v23) _ _ (List.forall_iff_forall_mem.mp (by
      simp only [hostOps2, List.Forall, StableHlo.nullary_writes, StableHlo.unary_writes, StableHlo.binary_writes, StableHlo.ternary_writes, StableHlo.reshape_writes, Finset.mem_singleton]
      repeat' apply And.intro
      all_goals exact StableHlo.devRef_ne_of_ne (by decide)))

theorem V5_arg1 (c : Dev nD) : V5 m ρ c main_arg1 = m ((c : Thread nD τ).loc main_arg1) := W5_arg1 m ρ c
theorem V5_arg13 (c : Dev nD) : V5 m ρ c main_arg13 = m ((c : Thread nD τ).loc main_arg13) := W5_arg13 m ρ c

/-- The third grid's two matrix operands: the upper and the lower rows of the read-out matrix. -/
theorem V5_v25 (c : Dev nD) : (V5 m ρ c main_v25 : S128x128.Idx → EReal) = repLo (m ((c : Thread nD τ).loc main_arg12)) := by
  have e : (V5 m ρ c main_v25 : S128x128.Idx → EReal) = repLo (W4 m ρ c (Proc.devRef .tc main_arg12)) := by
    show StableHlo.after hostOps2 (W4 m ρ c) (Proc.devRef .tc main_v25) = _
    after_results
    rfl
  rw [e, W4_arg12]

theorem V5_v27 (c : Dev nD) : (V5 m ρ c main_v27 : S64x128.Idx → EReal) = repHi (m ((c : Thread nD τ).loc main_arg12)) := by
  have e : (V5 m ρ c main_v27 : S64x128.Idx → EReal) = repHi (W4 m ρ c (Proc.devRef .tc main_arg12)) := by
    show StableHlo.after hostOps2 (W4 m ρ c) (Proc.devRef .tc main_v27) = _
    after_results
    rfl
  rw [e, W4_arg12]

/-! ## The result -/

/-- The result buffer at the last boundary is the whole program's function of the launch contents of its arguments. -/
theorem result_eq (c : Dev nD) : (W6 m ρ c (Proc.devRef .tc main_v28) : S50000x128.Idx → EReal)
    = kfun (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  have h := (W6_arr m ρ c 5).trans (Cert.KernelIdeal.Reg2.final (V5 m ρ) c)
  rw [V5_v23, W4_v23, V5_arg1, V5_v25, V5_v27, V5_arg13] at h
  exact h

end Cert.KernelIdeal.HostK

end
-- ==== Proof.RefMsgs.lean ====
import proofs.«103885_j12103217840256_1_alg».proof.Proof.Gen.ReferenceIdeal.Read
import proofs.«103885_j12103217840256_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.ReferenceIdeal.RefVal

open Cert.ReferenceIdeal Cert.ReferenceIdeal.Read Idealize.ShloMosaic Idealize.ShloMosaic.TcCoe Idealize.SL.Sem
open Idealize.ShloMosaic.ValueIdx

/-- At output position (l, e, f) the left operand of the batched product is read at (l, e, k):
    the batch and row coordinates are kept and the contracted coordinate runs. -/
theorem lidx_v7_ix3 (l : Fin 4) (e : Fin 400000) (f k : Fin 128) :
    lidx_main_v7 (ix3 l e f) k = ix3 l e k :=
  funext fun a => Fin.ext (by match a with | ⟨0, _⟩ => rfl | ⟨1, _⟩ => rfl | ⟨2, _⟩ => rfl)

/-- At output position (l, e, f) the right operand of the batched product is read at (l, k, f):
    the batch and column coordinates are kept and the contracted coordinate runs. -/
theorem ridx_v7_ix3 (l : Fin 4) (e : Fin 400000) (f k : Fin 128) :
    ridx_main_v7 (ix3 l e f) k = ix3 l k f :=
  funext fun a => Fin.ext (by match a with | ⟨0, _⟩ => rfl | ⟨1, _⟩ => rfl | ⟨2, _⟩ => rfl)

/-- The reference's batched product of the gathered source states with the per-type weights is the
    specification's message array: entry (l, e, f) of both is the sum over k of g(l,e,k) * W(l,k,f). -/
theorem msgs_eq (x0 : (⟨S50000x128, .f32⟩ : BufTy).Contents (Elt Ideal)) (x2 : (⟨S4x400000, .i32⟩ : BufTy).Contents (Elt Ideal)) (x4 : (⟨S4x128x128, .f32⟩ : BufTy).Contents (Elt Ideal)) :
    val_main_v7 (F := Ideal) x0 x2 x4 = Cert.Ggnn.msgs (val_main_v6 (F := Ideal) x0 x2) x4 := by
  funext i
  obtain ⟨l, e, f, rfl⟩ : ∃ l e f, i = ix3 l e f := ⟨i 0, i 1, i 2, eq_ix3 i⟩
  rw [val_main_v7_apply, Cert.Ggnn.msgs_ix3]
  generalize val_main_v6 (F := Ideal) x0 x2 = g
  refine Finset.sum_congr rfl fun k _ => ?_
  rw [lidx_v7_ix3, ridx_v7_ix3]

end Cert.ReferenceIdeal.RefVal

end
-- ==== Proof.RefGru.lean ====
import proofs.«103885_j12103217840256_1_alg».proof.Proof.Gen.ReferenceIdeal.Read
import proofs.«103885_j12103217840256_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

/-
  The reference's gated update is the specification's.

  The reference spells the update one array operation at a time: three pairs of matrix products, two
  sigmoids written as 1 / (1 + exp (-y)) with the float word of one, an elementwise product r .* h
  that feeds the last matrix product, a tanh, and the blend (1 - z) .* h + z .* c. Read at an index
  (n, f) each operation is a scalar expression in its operands at (n, f), and each matrix product is a
  sum over the shared axis of the left operand at (n, k) times the right at (k, f). The float word of
  one is the real one, so the spelled sigmoid is the logistic function; everything else is the
  specification's expression term for term. The aggregated message enters only as an array: nothing
  about how it was computed is used.
-/

set_option maxRecDepth 16384

noncomputable section

namespace Cert.ReferenceIdeal.RefVal

open Cert.ReferenceIdeal Cert.ReferenceIdeal.Read Idealize.ShloMosaic Idealize.ShloMosaic.TcCoe Idealize.SL.Sem
open Idealize.ShloMosaic.ValueIdx

/-- The sigmoid spelled with the float word of one, 1 / (1 + exp (-y)), is the logistic function:
    the word is the real one. -/
theorem sigmoid_word (y : EReal) :
    Ideal.div Cert.Ggnn.one32 (Cert.Ggnn.one32 + Ideal.exp (-y)) = Ideal.logistic y := by
  show Ideal.div (Ideal.ofBits .f32 0x3F800000#32) (Ideal.ofBits .f32 0x3F800000#32 + Ideal.exp (-y)) = _
  rw [Ideal.ofBits_one_f32]
  rfl

/-- A matrix product's left index at output (n, f) and summation index k is (n, k). -/
theorem lidx_ix2 (n : Fin 50000) (f k : Fin 128) : lidx_main_v15 (ix2 n f) k = ix2 n k :=
  funext fun a => Fin.ext (by match a with | ⟨0, _⟩ => rfl | ⟨1, _⟩ => rfl)

/-- A matrix product's right index at output (n, f) and summation index k is (k, f). -/
theorem ridx_ix2 (n : Fin 50000) (f k : Fin 128) : ridx_main_v15 (ix2 n f) k = ix2 k f :=
  funext fun a => Fin.ext (by match a with | ⟨0, _⟩ => rfl | ⟨1, _⟩ => rfl)

/-- The reference's matrix product read at (n, f) is the specification's entry. -/
theorem mm_read (a : Cert.Ggnn.Arr2 50000 128) (w : Cert.Ggnn.Arr2 128 128) (n : Fin 50000) (f : Fin 128) :
    ∑ k : Fin 128, a (lidx_main_v15 (ix2 n f) k) * w (ridx_main_v15 (ix2 n f) k) = Cert.Ggnn.mm a w n f := by
  unfold Cert.Ggnn.mm
  exact Finset.sum_congr rfl fun k _ => by rw [lidx_ix2, ridx_ix2]

/-- The spelled sigmoid of a sum of two matrix products, read at (n, f), is the specification's gate. -/
theorem gate_read (a h : Cert.Ggnn.Arr2 50000 128) (Wg Ug : Cert.Ggnn.Arr2 128 128) (n : Fin 50000) (f : Fin 128) :
    Ideal.div Cert.Ggnn.one32 (Cert.Ggnn.one32 + Ideal.exp (-((∑ k : Fin 128, a (lidx_main_v15 (ix2 n f) k) * Wg (ridx_main_v15 (ix2 n f) k))
        + (∑ k : Fin 128, h (lidx_main_v15 (ix2 n f) k) * Ug (ridx_main_v15 (ix2 n f) k)))))
      = Cert.Ggnn.gate a h Wg Ug n f := by
  rw [mm_read, mm_read, sigmoid_word]
  rfl

/-- The update gate z at (n, f). -/
theorem z_eq (x0 : (⟨S50000x128, .f32⟩ : BufTy).Contents (Elt Ideal)) (x2 x3 : (⟨S4x400000, .i32⟩ : BufTy).Contents (Elt Ideal)) (x4 : (⟨S4x128x128, .f32⟩ : BufTy).Contents (Elt Ideal)) (x5 : (⟨S1x128, .f32⟩ : BufTy).Contents (Elt Ideal)) (x6 x9 : (⟨S128x128, .f32⟩ : BufTy).Contents (Elt Ideal)) (n : Fin 50000) (f : Fin 128) :
    val_main_v23 (F := Ideal) x0 x2 x3 x4 x5 x6 x9 (ix2 n f)
      = Cert.Ggnn.gate (val_main_v14 (F := Ideal) x0 x2 x3 x4 x5) x0 x6 x9 n f := by
  rw [val_main_v23_apply, val_main_v22_apply, val_main_cst_2_apply, val_main_v21_apply, val_main_v20_apply,
    val_main_cst_1_apply, val_main_v19_apply, val_main_v18_apply, val_main_v17_apply, val_main_v15_apply,
    val_main_v16_apply]
  generalize val_main_v14 (F := Ideal) x0 x2 x3 x4 x5 = a
  exact gate_read a x0 x6 x9 n f

/-- The reset gate r at (n, k). -/
theorem r_eq (x0 : (⟨S50000x128, .f32⟩ : BufTy).Contents (Elt Ideal)) (x2 x3 : (⟨S4x400000, .i32⟩ : BufTy).Contents (Elt Ideal)) (x4 : (⟨S4x128x128, .f32⟩ : BufTy).Contents (Elt Ideal)) (x5 : (⟨S1x128, .f32⟩ : BufTy).Contents (Elt Ideal)) (x7 x10 : (⟨S128x128, .f32⟩ : BufTy).Contents (Elt Ideal)) (n : Fin 50000) (k : Fin 128) :
    val_main_v32 (F := Ideal) x0 x2 x3 x4 x5 x7 x10 (ix2 n k)
      = Cert.Ggnn.gate (val_main_v14 (F := Ideal) x0 x2 x3 x4 x5) x0 x7 x10 n k := by
  rw [val_main_v32_apply, val_main_v31_apply, val_main_cst_4_apply, val_main_v30_apply, val_main_v29_apply,
    val_main_cst_3_apply, val_main_v28_apply, val_main_v27_apply, val_main_v26_apply, val_main_v24_apply,
    val_main_v25_apply]
  generalize val_main_v14 (F := Ideal) x0 x2 x3 x4 x5 = a
  exact gate_read a x0 x7 x10 n k

/-- The reset state r .* h at (n, k). -/
theorem reset_eq (x0 : (⟨S50000x128, .f32⟩ : BufTy).Contents (Elt Ideal)) (x2 x3 : (⟨S4x400000, .i32⟩ : BufTy).Contents (Elt Ideal)) (x4 : (⟨S4x128x128, .f32⟩ : BufTy).Contents (Elt Ideal)) (x5 : (⟨S1x128, .f32⟩ : BufTy).Contents (Elt Ideal)) (x7 x10 : (⟨S128x128, .f32⟩ : BufTy).Contents (Elt Ideal)) (n : Fin 50000) (k : Fin 128) :
    val_main_v34 (F := Ideal) x0 x2 x3 x4 x5 x7 x10 (ix2 n k)
      = Cert.Ggnn.resetState (val_main_v14 (F := Ideal) x0 x2 x3 x4 x5) x0 x7 x10 (ix2 n k) := by
  rw [val_main_v34_apply, r_eq]
  rfl

/-- The candidate state c at (n, f). -/
theorem cand_eq (x0 : (⟨S50000x128, .f32⟩ : BufTy).Contents (Elt Ideal)) (x2 x3 : (⟨S4x400000, .i32⟩ : BufTy).Contents (Elt Ideal)) (x4 : (⟨S4x128x128, .f32⟩ : BufTy).Contents (Elt Ideal)) (x5 : (⟨S1x128, .f32⟩ : BufTy).Contents (Elt Ideal)) (x7 x8 x10 x11 : (⟨S128x128, .f32⟩ : BufTy).Contents (Elt Ideal)) (n : Fin 50000) (f : Fin 128) :
    val_main_v37 (F := Ideal) x0 x2 x3 x4 x5 x7 x8 x10 x11 (ix2 n f)
      = Cert.Ggnn.cand (val_main_v14 (F := Ideal) x0 x2 x3 x4 x5) x0 x7 x8 x10 x11 n f := by
  have e35 : val_main_v35 (F := Ideal) x0 x2 x3 x4 x5 x7 x10 x11 (ix2 n f)
      = Cert.Ggnn.mm (Cert.Ggnn.resetState (val_main_v14 (F := Ideal) x0 x2 x3 x4 x5) x0 x7 x10) x11 n f := by
    rw [val_main_v35_apply]
    unfold Cert.Ggnn.mm
    refine Finset.sum_congr rfl fun k _ => ?_
    rw [show lidx_main_v35 (ix2 n f) k = ix2 n k from lidx_ix2 n f k,
      show ridx_main_v35 (ix2 n f) k = ix2 k f from ridx_ix2 n f k, reset_eq]
  rw [val_main_v37_apply, val_main_v36_apply, e35, val_main_v33_apply]
  generalize val_main_v14 (F := Ideal) x0 x2 x3 x4 x5 = a
  rw [show (∑ k : Fin 128, a (lidx_main_v33 (ix2 n f) k) * x8 (ridx_main_v33 (ix2 n f) k)) = Cert.Ggnn.mm a x8 n f
    from mm_read a x8 n f]
  rfl

theorem gru_eq (x0 : (⟨S50000x128, .f32⟩ : BufTy).Contents (Elt Ideal)) (x2 x3 : (⟨S4x400000, .i32⟩ : BufTy).Contents (Elt Ideal)) (x4 : (⟨S4x128x128, .f32⟩ : BufTy).Contents (Elt Ideal)) (x5 : (⟨S1x128, .f32⟩ : BufTy).Contents (Elt Ideal)) (x6 x7 x8 x9 x10 x11 : (⟨S128x128, .f32⟩ : BufTy).Contents (Elt Ideal)) :
    val_main_v42 (F := Ideal) x0 x2 x3 x4 x5 x6 x7 x8 x9 x10 x11
      = Cert.Ggnn.gru (val_main_v14 (F := Ideal) x0 x2 x3 x4 x5) x0 x6 x7 x8 x9 x10 x11 := by
  funext i
  obtain ⟨n, f, rfl⟩ : ∃ (n : Fin 50000) (f : Fin 128), i = ix2 n f := ⟨i 0, i 1, eq_ix2 i⟩
  rw [Cert.Ggnn.gru_ix2, val_main_v42_apply, val_main_v40_apply, val_main_v41_apply, val_main_v39_apply,
    val_main_v38_apply, val_main_cst_5_apply, z_eq, cand_eq]
  rfl

end Cert.ReferenceIdeal.RefVal

end
-- ==== Proof.RefProj.lean ====
import proofs.«103885_j12103217840256_1_alg».proof.Proof.Gen.ReferenceIdeal.Read
import proofs.«103885_j12103217840256_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.ReferenceIdeal.RefVal

open Cert.ReferenceIdeal Cert.ReferenceIdeal.Read Idealize.ShloMosaic Idealize.ShloMosaic.TcCoe Idealize.SL.Sem
open Cert.ReferenceIdeal.Gen Idealize.ShloMosaic.ValueIdx

/-- The joined row (h' | x) of length 192, as the reference builds it from a state h' and the annotation x. -/
abbrev joined (h1 : (⟨S50000x128, .f32⟩ : BufTy).Contents (Elt Ideal)) (x1 : (⟨S50000x64, .f32⟩ : BufTy).Contents (Elt Ideal)) :
    (⟨S50000x192, .f32⟩ : BufTy).Contents (Elt Ideal) :=
  concatenate S50000x192 1 [⟨S50000x128, h1⟩, ⟨S50000x64, x1⟩] concatenates_S50000x128_S50000x64_S50000x192_d1

/-- In its first 128 columns the joined row is the state: (h' | x)(n, k) = h'(n, k) for k < 128. -/
theorem joined_lo (h1 : (⟨S50000x128, .f32⟩ : BufTy).Contents (Elt Ideal)) (x1 : (⟨S50000x64, .f32⟩ : BufTy).Contents (Elt Ideal))
    (n : Fin 50000) (k : Fin 128) :
    joined h1 x1 (ix2 n (Fin.castAdd 64 k)) = h1 (ix2 n k) :=
  concatenate_pair_apply_left 1 h1 x1 concatenates_S50000x128_S50000x64_S50000x192_d1 (ix2 n (Fin.castAdd 64 k)) rfl (ix2 n k)
    (fun b => by match b with | ⟨0, _⟩ => rfl | ⟨1, _⟩ => rfl)

/-- In its last 64 columns the joined row is the annotation: (h' | x)(n, 128 + k) = x(n, k) for k < 64. -/
theorem joined_hi (h1 : (⟨S50000x128, .f32⟩ : BufTy).Contents (Elt Ideal)) (x1 : (⟨S50000x64, .f32⟩ : BufTy).Contents (Elt Ideal))
    (n : Fin 50000) (k : Fin 64) :
    joined h1 x1 (ix2 n (Fin.natAdd 128 k)) = x1 (ix2 n k) :=
  concatenate_pair_apply_right 1 h1 x1 concatenates_S50000x128_S50000x64_S50000x192_d1 (ix2 n (Fin.natAdd 128 k)) rfl rfl (ix2 n k)
    (fun b hb => by match b with | ⟨0, _⟩ => rfl | ⟨1, _⟩ => exact absurd rfl hb)
    (by show k.val + 128 = 128 + k.val; omega)

/-- At output position (n, f) the joined row is read at (n, k). -/
theorem lidx_v44_ix2 (n : Fin 50000) (f : Fin 128) (k : Fin 192) :
    lidx_main_v44 (ix2 n f) k = ix2 n k :=
  funext fun a => Fin.ext (by match a with | ⟨0, _⟩ => rfl | ⟨1, _⟩ => rfl)

/-- At output position (n, f) the read-out matrix is read at (k, f). -/
theorem ridx_v44_ix2 (n : Fin 50000) (f : Fin 128) (k : Fin 192) :
    ridx_main_v44 (ix2 n f) k = ix2 k f :=
  funext fun a => Fin.ext (by match a with | ⟨0, _⟩ => rfl | ⟨1, _⟩ => rfl)

/-- At output position (n, f) the bias row is read at (0, f). -/
theorem idx_v45_ix2 (n : Fin 50000) (f : Fin 128) :
    idx_main_v45 (ix2 n f) = ix2 0 f :=
  funext fun a => Fin.ext (by match a with | ⟨0, _⟩ => rfl | ⟨1, _⟩ => rfl)

/-- The product of the joined row with the whole read-out matrix is the state times its upper 128 rows
    plus the annotation times its lower 64 rows: the sum over 192 indices cut after its first 128 terms. -/
theorem joined_mul (h1 : (⟨S50000x128, .f32⟩ : BufTy).Contents (Elt Ideal)) (x1 : (⟨S50000x64, .f32⟩ : BufTy).Contents (Elt Ideal))
    (r : (⟨S192x128, .f32⟩ : BufTy).Contents (Elt Ideal)) (n : Fin 50000) (f : Fin 128) :
    (∑ k : Fin 192, joined h1 x1 (lidx_main_v44 (ix2 n f) k) * r (ridx_main_v44 (ix2 n f) k) : EReal)
      = ∑ k : Fin 128, h1 (ix2 n k) * Cert.Ggnn.rowsLo r (ix2 k f) + ∑ k : Fin 64, x1 (ix2 n k) * Cert.Ggnn.rowsHi r (ix2 k f) := by
  rw [Cert.Ggnn.sum_192_split]
  congr 1
  · refine Finset.sum_congr rfl fun k _ => ?_
    rw [lidx_v44_ix2, ridx_v44_ix2, joined_lo, Cert.Ggnn.rowsLo_ix2]
  · refine Finset.sum_congr rfl fun k _ => ?_
    rw [lidx_v44_ix2, ridx_v44_ix2, joined_hi, Cert.Ggnn.rowsHi_ix2]

/-- The reference's read-out, the joined row (h' | x) times the whole matrix plus the broadcast bias row,
    is the specification's read-out with the matrix cut into its upper 128 and lower 64 rows. -/
theorem proj_eq (x0 : (⟨S50000x128, .f32⟩ : BufTy).Contents (Elt Ideal)) (x1 : (⟨S50000x64, .f32⟩ : BufTy).Contents (Elt Ideal)) (x2 x3 : (⟨S4x400000, .i32⟩ : BufTy).Contents (Elt Ideal)) (x4 : (⟨S4x128x128, .f32⟩ : BufTy).Contents (Elt Ideal)) (x5 : (⟨S1x128, .f32⟩ : BufTy).Contents (Elt Ideal)) (x6 x7 x8 x9 x10 x11 : (⟨S128x128, .f32⟩ : BufTy).Contents (Elt Ideal)) (x12 : (⟨S192x128, .f32⟩ : BufTy).Contents (Elt Ideal)) (x13 : (⟨S1x128, .f32⟩ : BufTy).Contents (Elt Ideal)) :
    val_main_v46 (F := Ideal) x0 x1 x2 x3 x4 x5 x6 x7 x8 x9 x10 x11 x12 x13
      = Cert.Ggnn.proj (val_main_v42 (F := Ideal) x0 x2 x3 x4 x5 x6 x7 x8 x9 x10 x11) x1 (Cert.Ggnn.rowsLo x12) (Cert.Ggnn.rowsHi x12) x13 := by
  funext i
  obtain ⟨n, f, rfl⟩ : ∃ n f, i = ix2 n f := ⟨i 0, i 1, eq_ix2 i⟩
  rw [val_main_v46_apply, val_main_v44_apply, val_main_v45_apply, Cert.Ggnn.proj_ix2, idx_v45_ix2]
  unfold val_main_v43
  generalize val_main_v42 (F := Ideal) x0 x2 x3 x4 x5 x6 x7 x8 x9 x10 x11 = h1
  show (∑ k : Fin 192, joined h1 x1 (lidx_main_v44 (ix2 n f) k) * x12 (ridx_main_v44 (ix2 n f) k) : EReal) + x13 (ix2 0 f) = _
  rw [joined_mul]
  rfl

end Cert.ReferenceIdeal.RefVal

end
-- ==== Proof.Bridge.lean ====
/-
  The two programs compute one function.

  Both run the same array operations around the heavy stages: the same gather of source states, the same flattening,
  scatter-add into zeros and bias shift. So the kernel program's gathered states and aggregated messages ARE the
  reference's, term for term. The stages in between agree with the specification on both sides: the per-edge-type
  product, the gated update, and the read-out, where the kernel multiplies by the upper 128 and the lower 64 rows of the
  read-out matrix separately and the reference multiplies the joined row (h' | x) by the whole matrix — a sum over 192
  indices split after its first 128 terms.
-/
import proofs.«103885_j12103217840256_1_alg».proof.Proof.HostK
import proofs.«103885_j12103217840256_1_alg».proof.Proof.RefMsgs
import proofs.«103885_j12103217840256_1_alg».proof.Proof.RefGru
import proofs.«103885_j12103217840256_1_alg».proof.Proof.RefProj
import Idealize.ShloMosaic.Lib.Pipeline.Value

set_option maxRecDepth 16384

noncomputable section

namespace Cert.Proof.Bridge

open Idealize.ShloMosaic Idealize.ShloMosaic.ValueIdx
open Cert.KernelIdeal.HostK Cert.ReferenceIdeal.Read Cert.ReferenceIdeal.RefVal

/-- The kernel program's gathered source states are the reference's: the same operations on the same arguments. -/
theorem gath_eq (x0 : FVec Ideal Cert.KernelIdeal.S50000x128 .f32) (x2 : IVec Cert.KernelIdeal.S4x400000 32) :
    gath x0 x2 = val_main_v6 (F := Ideal) x0 x2 := rfl

/-- The reference's aggregated messages are the kernel program's aggregation of the reference's products. -/
theorem agg_eq (x0 : FVec Ideal Cert.KernelIdeal.S50000x128 .f32) (x2 x3 : IVec Cert.KernelIdeal.S4x400000 32)
    (x4 : FVec Ideal Cert.KernelIdeal.S4x128x128 .f32) (x5 : FVec Ideal Cert.KernelIdeal.S1x128 .f32) :
    val_main_v14 (F := Ideal) x0 x2 x3 x4 x5 = agg (val_main_v7 (F := Ideal) x0 x2 x4) x3 x5 := rfl

/-- The slice of the read-out matrix at row offset 0 is its upper 128 rows. -/
theorem repLo_eq (x12 : FVec Ideal Cert.KernelIdeal.S192x128 .f32) : repLo x12 = Cert.Ggnn.rowsLo x12 := by
  funext j
  unfold repLo Cert.Ggnn.rowsLo
  refine extractStridedSlice_apply ![0, 0] x12 _ j (ix2 (Fin.castAdd 64 (j 0)) (j 1)) (fun a => ?_)
  match a with
  | ⟨0, _⟩ => show (j 0).val = 0 + (j 0).val; omega
  | ⟨1, _⟩ => show (j 1).val = 0 + (j 1).val; omega

/-- The slice of the read-out matrix at row offset 128 is its lower 64 rows. -/
theorem repHi_eq (x12 : FVec Ideal Cert.KernelIdeal.S192x128 .f32) : repHi x12 = Cert.Ggnn.rowsHi x12 := by
  funext j
  unfold repHi Cert.Ggnn.rowsHi
  refine extractStridedSlice_apply ![128, 0] x12 _ j (ix2 (Fin.natAdd 128 (j 0)) (j 1)) (fun a => ?_)
  match a with
  | ⟨0, _⟩ => show 128 + (j 0).val = 128 + (j 0).val; rfl
  | ⟨1, _⟩ => show (j 1).val = 0 + (j 1).val; omega

/-- The kernel program's function of the arguments is the reference's last stage. -/
theorem kfun_eq (x0 : FVec Ideal Cert.KernelIdeal.S50000x128 .f32) (x1 : FVec Ideal Cert.KernelIdeal.S50000x64 .f32)
    (x2 x3 : IVec Cert.KernelIdeal.S4x400000 32) (x4 : FVec Ideal Cert.KernelIdeal.S4x128x128 .f32)
    (x5 : FVec Ideal Cert.KernelIdeal.S1x128 .f32) (x6 x7 x8 x9 x10 x11 : FVec Ideal Cert.KernelIdeal.S128x128 .f32)
    (x12 : FVec Ideal Cert.KernelIdeal.S192x128 .f32) (x13 : FVec Ideal Cert.KernelIdeal.S1x128 .f32) :
    kfun x0 x1 x2 x3 x4 x5 x6 x7 x8 x9 x10 x11 x12 x13
      = val_main_v46 (F := Ideal) x0 x1 x2 x3 x4 x5 x6 x7 x8 x9 x10 x11 x12 x13 := by
  rw [proj_eq, gru_eq, agg_eq, msgs_eq, ← gath_eq]
  unfold kfun
  rw [repLo_eq, repHi_eq]

end Cert.Proof.Bridge

end
-- ==== Proof.lean ====
/-
  One propagation step of a gated graph network followed by a linear read-out, as three tiled grids with plain array
  operations between them, against the same step written with whole-array operations.

  Over the extended reals the two programs are one function of their arguments. A change of float format changes no
  value, a product accumulated into zero is the plain sum, and the logistic function is 1 / (1 + exp (-y)) by definition,
  so each grid's output array, read block by block, is a whole-array expression: the per-edge-type product of the gathered
  source states with the weights; the gated update (1 - z) .* h + z .* tanh (a W + (r .* h) U) with both gates logistic
  functions of sums of two products; the read-out h' R_upper + x R_lower + b. The reference computes the same product and
  the same update one array operation at a time, and its read-out as (h' | x) R + b, where the sum over the 192 joined
  columns splits into the 128 of h' against the upper rows of R and the 64 of x against the lower rows. The gather before
  the first grid and the scatter-add with its bias between the first and the second are the same operations in both
  programs. Only commutativity-free re-association of one finite sum is used, so no argument needs to be finite.

  The three frames: the two grid programs' are the generated ones; the reference has no grid and its frame is its run with
  the result dropped. The idealization changed nothing that needs a statement.
-/
import proofs.«103885_j12103217840256_1_alg».proof.Defs
import proofs.«103885_j12103217840256_1_alg».proof.Proof.Gen.Kernel
import proofs.«103885_j12103217840256_1_alg».proof.Proof.Gen.Kernel.Skeleton
import proofs.«103885_j12103217840256_1_alg».proof.Proof.Gen.Kernel.Launch
import proofs.«103885_j12103217840256_1_alg».proof.Proof.Gen.Kernel.Points
import proofs.«103885_j12103217840256_1_alg».proof.Proof.Gen.Kernel.Frame
import proofs.«103885_j12103217840256_1_alg».proof.Proof.Gen.KernelIdeal
import proofs.«103885_j12103217840256_1_alg».proof.Proof.Gen.KernelIdeal.Skeleton
import proofs.«103885_j12103217840256_1_alg».proof.Proof.Gen.KernelIdeal.Launch
import proofs.«103885_j12103217840256_1_alg».proof.Proof.Gen.KernelIdeal.Points
import proofs.«103885_j12103217840256_1_alg».proof.Proof.Gen.KernelIdeal.Frame
import proofs.«103885_j12103217840256_1_alg».proof.Proof.Gen.ReferenceIdeal
import proofs.«103885_j12103217840256_1_alg».proof.Proof.Gen.ReferenceIdeal.Run
import proofs.«103885_j12103217840256_1_alg».proof.Proof.Gen.ReferenceIdeal.Read
import proofs.«103885_j12103217840256_1_alg».proof.Proof.Gen.Pre_finite_inputs
import proofs.«103885_j12103217840256_1_alg».proof.Proof.RunK
import proofs.«103885_j12103217840256_1_alg».proof.Proof.HostK
import proofs.«103885_j12103217840256_1_alg».proof.Proof.Bridge
import Idealize.ShloMosaic.Adequacy
import Idealize.ShloMosaic.Init

noncomputable section

namespace Cert.Proof

open Idealize.ShloMosaic Idealize.ShloMosaic.TcCoe Idealize.SL.Sem

/-- The word-level grid program terminates, faults nowhere and leaves its arguments as launched. -/
theorem frame_p : Cert.frame_Kernel := fun m ρ _ => Cert.Kernel.Gen.frame m ρ

/-- So does its reading over the extended reals. -/
theorem frame_pi : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten when the grid program was read over the extended reals. -/
theorem preserves : Cert.preserves_Kernel_KernelIdeal := trivial

/-- Run from memories that agree on the arguments, both programs end with the result at one and the same function of the
    arguments: the grid program's composition of its three grids' whole-array values through the operations between
    them, which is the reference's last stage. -/
theorem algebraic : Cert.algebraic_KernelIdeal_ReferenceIdeal := by
  intro m ρ m' ρ' _ hagree
  refine ⟨fun c => Cert.KernelIdeal.HostK.kfun
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.HostK.result_eq m ρ c), (h c).2⟩)
      (Cert.KernelIdeal.RunK.run (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13⟩ := hagree c
    rw [Cert.ReferenceIdeal.Read.val_main_v46_eq, h0, h1, h2, h3, h4, h5, h6, h7, h8, h9, h10, h11, h12, h13]
    exact (Cert.Proof.Bridge.kfun_eq _ _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
